-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2x800000 : Shape := ⟨3, ![2, 2, 800000]⟩
abbrev S2x800000 : Shape := ⟨2, ![2, 800000]⟩
abbrev S2x1x256 : Shape := ⟨3, ![2, 1, 256]⟩
abbrev S2x256 : Shape := ⟨2, ![2, 256]⟩
abbrev S2x256x256 : Shape := ⟨3, ![2, 256, 256]⟩
abbrev S_ : Shape := ⟨0, ![]⟩

class Facts : Prop where
  bcast_S_S2x800000 : S_.BroadcastsInDim S2x800000 (![] : Fin 0 → Fin S2x800000.rank)
  reducesTo_S2x800000_S_d0_1 : S2x800000.ReducesTo [0, 1] S_
  h_S_ : 0 < S_.numel
  bcast_S_S2x1x256 : S_.BroadcastsInDim S2x1x256 (![] : Fin 0 → Fin S2x1x256.rank)
  reducesTo_S2x1x256_S_d0_1_2 : S2x1x256.ReducesTo [0, 1, 2] S_
  bcast_S_S2x256 : S_.BroadcastsInDim S2x256 (![] : Fin 0 → Fin S2x256.rank)
  reducesTo_S2x256_S_d0_1 : S2x256.ReducesTo [0, 1] S_
  bcast_S_S2x256x256 : S_.BroadcastsInDim S2x256x256 (![] : Fin 0 → Fin S2x256x256.rank)
  reducesTo_S2x256x256_S_d0_1_2 : S2x256x256.ReducesTo [0, 1, 2] S_

variable [Facts]

def fn_part2 {F : FTy → Type} [FloatOps F] (main_arg8 : FVec F S2x256x256 .f32) (main_arg9 : FVec F S2x256 .f32) (main_v33 : IVec S_ 1) : IVec S_ 1 :=
  let main_v34 : FVec F S2x256x256 .f32 := Host.absf main_arg8
  let main_cst_12 : FVec F S_ .f32 := constant S_ .f32 0x7F800000#32
  let main_v35 : FVec F S2x256x256 .f32 := broadcastInDim S2x256x256 ![] bcast_S_S2x256x256 main_cst_12
  let main_v36 : IVec S2x256x256 1 := cmpf .olt main_v34 main_v35
  let main_c_13 : IVec S_ 1 := constantI S_ 1 1#1
  let main_v37 : IVec S_ 1 := (fun x v => Host.reduce IntOp.andi x v reducesTo_S2x256x256_S_d0_1_2 h_S_) main_v36 main_c_13
  let main_v38 : IVec S_ 1 := andi main_v33 main_v37
  let main_v39 : FVec F S2x256 .f32 := Host.absf main_arg9
  let main_cst_14 : FVec F S_ .f32 := constant S_ .f32 0x7F800000#32
  let main_v40 : FVec F S2x256 .f32 := broadcastInDim S2x256 ![] bcast_S_S2x256 main_cst_14
  let main_v41 : IVec S2x256 1 := cmpf .olt main_v39 main_v40
  let main_c_15 : IVec S_ 1 := constantI S_ 1 1#1
  let main_v42 : IVec S_ 1 := (fun x v => Host.reduce IntOp.andi x v reducesTo_S2x256_S_d0_1 h_S_) main_v41 main_c_15
  let main_v43 : IVec S_ 1 := andi main_v38 main_v42
  main_v43

def fn_part1 {F : FTy → Type} [FloatOps F] (main_arg5 : FVec F S2x256 .f32) (main_arg6 : FVec F S2x256x256 .f32) (main_arg7 : FVec F S2x256 .f32) (main_arg8 : FVec F S2x256x256 .f32) (main_arg9 : FVec F S2x256 .f32) (main_v13 : IVec S_ 1) (main_v16 : IVec S2x256x256 1) : IVec S_ 1 :=
  let main_c_5 : IVec S_ 1 := constantI S_ 1 1#1
  let main_v17 : IVec S_ 1 := (fun x v => Host.reduce IntOp.andi x v reducesTo_S2x256x256_S_d0_1_2 h_S_) main_v16 main_c_5
  let main_v18 : IVec S_ 1 := andi main_v13 main_v17
  let main_v19 : FVec F S2x256 .f32 := Host.absf main_arg5
  let main_cst_6 : FVec F S_ .f32 := constant S_ .f32 0x7F800000#32
  let main_v20 : FVec F S2x256 .f32 := broadcastInDim S2x256 ![] bcast_S_S2x256 main_cst_6
  let main_v21 : IVec S2x256 1 := cmpf .olt main_v19 main_v20
  let main_c_7 : IVec S_ 1 := constantI S_ 1 1#1
  let main_v22 : IVec S_ 1 := (fun x v => Host.reduce IntOp.andi x v reducesTo_S2x256_S_d0_1 h_S_) main_v21 main_c_7
  let main_v23 : IVec S_ 1 := andi main_v18 main_v22
  let main_v24 : FVec F S2x256x256 .f32 := Host.absf main_arg6
  let main_cst_8 : FVec F S_ .f32 := constant S_ .f32 0x7F800000#32
  let main_v25 : FVec F S2x256x256 .f32 := broadcastInDim S2x256x256 ![] bcast_S_S2x256x256 main_cst_8
  let main_v26 : IVec S2x256x256 1 := cmpf .olt main_v24 main_v25
  let main_c_9 : IVec S_ 1 := constantI S_ 1 1#1
  let main_v27 : IVec S_ 1 := (fun x v => Host.reduce IntOp.andi x v reducesTo_S2x256x256_S_d0_1_2 h_S_) main_v26 main_c_9
  let main_v28 : IVec S_ 1 := andi main_v23 main_v27
  let main_v29 : FVec F S2x256 .f32 := Host.absf main_arg7
  let main_cst_10 : FVec F S_ .f32 := constant S_ .f32 0x7F800000#32
  let main_v30 : FVec F S2x256 .f32 := broadcastInDim S2x256 ![] bcast_S_S2x256 main_cst_10
  let main_v31 : IVec S2x256 1 := cmpf .olt main_v29 main_v30
  let main_c_11 : IVec S_ 1 := constantI S_ 1 1#1
  let main_v32 : IVec S_ 1 := (fun x v => Host.reduce IntOp.andi x v reducesTo_S2x256_S_d0_1 h_S_) main_v31 main_c_11
  let main_v33 : IVec S_ 1 := andi main_v28 main_v32
  fn_part2 (F := F) main_arg8 main_arg9 main_v33

def fn {F : FTy → Type} [FloatOps F] (main_arg0 : IVec S2x2x800000 32) (main_arg1 : FVec F S2x800000 .f32) (main_arg2 : FVec F S2x1x256 .f32) (main_arg3 : FVec F S2x256 .f32) (main_arg4 : FVec F S2x256x256 .f32) (main_arg5 : FVec F S2x256 .f32) (main_arg6 : FVec F S2x256x256 .f32) (main_arg7 : FVec F S2x256 .f32) (main_arg8 : FVec F S2x256x256 .f32) (main_arg9 : FVec F S2x256 .f32) : IVec S_ 1 :=
  let main_v0 : FVec F S2x800000 .f32 := Host.absf main_arg1
  let main_cst : FVec F S_ .f32 := constant S_ .f32 0x7F800000#32
  let main_v1 : FVec F S2x800000 .f32 := broadcastInDim S2x800000 ![] bcast_S_S2x800000 main_cst
  let main_v2 : IVec S2x800000 1 := cmpf .olt main_v0 main_v1
  let main_c : IVec S_ 1 := constantI S_ 1 1#1
  let main_v3 : IVec S_ 1 := (fun x v => Host.reduce IntOp.andi x v reducesTo_S2x800000_S_d0_1 h_S_) main_v2 main_c
  let main_v4 : FVec F S2x1x256 .f32 := Host.absf main_arg2
  let main_cst_0 : FVec F S_ .f32 := constant S_ .f32 0x7F800000#32
  let main_v5 : FVec F S2x1x256 .f32 := broadcastInDim S2x1x256 ![] bcast_S_S2x1x256 main_cst_0
  let main_v6 : IVec S2x1x256 1 := cmpf .olt main_v4 main_v5
  let main_c_1 : IVec S_ 1 := constantI S_ 1 1#1
  let main_v7 : IVec S_ 1 := (fun x v => Host.reduce IntOp.andi x v reducesTo_S2x1x256_S_d0_1_2 h_S_) main_v6 main_c_1
  let main_v8 : IVec S_ 1 := andi main_v3 main_v7
  let main_v9 : FVec F S2x256 .f32 := Host.absf main_arg3
  let main_cst_2 : FVec F S_ .f32 := constant S_ .f32 0x7F800000#32
  let main_v10 : FVec F S2x256 .f32 := broadcastInDim S2x256 ![] bcast_S_S2x256 main_cst_2
  let main_v11 : IVec S2x256 1 := cmpf .olt main_v9 main_v10
  let main_c_3 : IVec S_ 1 := constantI S_ 1 1#1
  let main_v12 : IVec S_ 1 := (fun x v => Host.reduce IntOp.andi x v reducesTo_S2x256_S_d0_1 h_S_) main_v11 main_c_3
  let main_v13 : IVec S_ 1 := andi main_v8 main_v12
  let main_v14 : FVec F S2x256x256 .f32 := Host.absf main_arg4
  let main_cst_4 : FVec F S_ .f32 := constant S_ .f32 0x7F800000#32
  let main_v15 : FVec F S2x256x256 .f32 := broadcastInDim S2x256x256 ![] bcast_S_S2x256x256 main_cst_4
  let main_v16 : IVec S2x256x256 1 := cmpf .olt main_v14 main_v15
  fn_part1 (F := F) main_arg5 main_arg6 main_arg7 main_arg8 main_arg9 main_v13 main_v16
-- ==== Kernel.lean ====
abbrev S2x2x800000 : Shape := ⟨3, ![2, 2, 800000]⟩
abbrev S2x800000 : Shape := ⟨2, ![2, 800000]⟩
abbrev S2x1x256 : Shape := ⟨3, ![2, 1, 256]⟩
abbrev S2x256 : Shape := ⟨2, ![2, 256]⟩
abbrev S2x256x256 : Shape := ⟨3, ![2, 256, 256]⟩
abbrev S1x800000 : Shape := ⟨2, ![1, 800000]⟩
abbrev S800000 : Shape := ⟨1, ![800000]⟩
abbrev S800000x1 : Shape := ⟨2, ![800000, 1]⟩
abbrev S1x1x256 : Shape := ⟨3, ![1, 1, 256]⟩
abbrev S1x256 : Shape := ⟨2, ![1, 256]⟩
abbrev S256 : Shape := ⟨1, ![256]⟩
abbrev S1x256x256 : Shape := ⟨3, ![1, 256, 256]⟩
abbrev S256x256 : Shape := ⟨2, ![256, 256]⟩
abbrev S800000x256 : Shape := ⟨2, ![800000, 256]⟩
abbrev S3200x1 : Shape := ⟨2, ![3200, 1]⟩
abbrev S3200x256 : Shape := ⟨2, ![3200, 256]⟩
abbrev S1x1x800000 : Shape := ⟨3, ![1, 1, 800000]⟩
abbrev S_ : Shape := ⟨0, ![]⟩
abbrev S50000x256 : Shape := ⟨2, ![50000, 256]⟩
abbrev S2000x256 : Shape := ⟨2, ![2000, 256]⟩
abbrev S1x50000x256 : Shape := ⟨3, ![1, 50000, 256]⟩
abbrev S2x50000x256 : Shape := ⟨3, ![2, 50000, 256]⟩

abbrev nBuf : Space → Nat
  | .hbm => 75
  | .vmem => 32
  | .smem => 0
  | _ => 0

abbrev bufTy : (tb : Table) → Fin (tcTables nBuf tb) → BufTy
  | .hbm, ⟨0, _⟩ => ⟨S2x2x800000, .i32⟩
  | .hbm, ⟨1, _⟩ => ⟨S2x800000, .f32⟩
  | .hbm, ⟨2, _⟩ => ⟨S2x1x256, .f32⟩
  | .hbm, ⟨3, _⟩ => ⟨S2x256, .f32⟩
  | .hbm, ⟨4, _⟩ => ⟨S2x256x256, .f32⟩
  | .hbm, ⟨5, _⟩ => ⟨S2x256, .f32⟩
  | .hbm, ⟨6, _⟩ => ⟨S2x256x256, .f32⟩
  | .hbm, ⟨7, _⟩ => ⟨S2x256, .f32⟩
  | .hbm, ⟨8, _⟩ => ⟨S2x256x256, .f32⟩
  | .hbm, ⟨9, _⟩ => ⟨S2x256, .f32⟩
  | .hbm, ⟨10, _⟩ => ⟨S1x800000, .f32⟩
  | .hbm, ⟨11, _⟩ => ⟨S800000, .f32⟩
  | .hbm, ⟨12, _⟩ => ⟨S800000x1, .f32⟩
  | .hbm, ⟨13, _⟩ => ⟨S1x1x256, .f32⟩
  | .hbm, ⟨14, _⟩ => ⟨S1x256, .f32⟩
  | .hbm, ⟨15, _⟩ => ⟨S1x256, .f32⟩
  | .hbm, ⟨16, _⟩ => ⟨S256, .f32⟩
  | .hbm, ⟨17, _⟩ => ⟨S1x256, .f32⟩
  | .hbm, ⟨18, _⟩ => ⟨S1x256x256, .f32⟩
  | .hbm, ⟨19, _⟩ => ⟨S256x256, .f32⟩
  | .hbm, ⟨20, _⟩ => ⟨S1x256, .f32⟩
  | .hbm, ⟨21, _⟩ => ⟨S256, .f32⟩
  | .hbm, ⟨22, _⟩ => ⟨S1x256, .f32⟩
  | .hbm, ⟨23, _⟩ => ⟨S800000x256, .f32⟩
  | .hbm, ⟨24, _⟩ => ⟨S1x1x800000, .i32⟩
  | .hbm, ⟨25, _⟩ => ⟨S800000, .i32⟩
  | .hbm, ⟨26, _⟩ => ⟨S_, .f32⟩
  | .hbm, ⟨27, _⟩ => ⟨S50000x256, .f32⟩
  | .hbm, ⟨28, _⟩ => ⟨S800000x1, .i32⟩
  | .hbm, ⟨29, _⟩ => ⟨S50000x256, .f32⟩
  | .hbm, ⟨30, _⟩ => ⟨S1x256x256, .f32⟩
  | .hbm, ⟨31, _⟩ => ⟨S256x256, .f32⟩
  | .hbm, ⟨32, _⟩ => ⟨S1x256, .f32⟩
  | .hbm, ⟨33, _⟩ => ⟨S256, .f32⟩
  | .hbm, ⟨34, _⟩ => ⟨S1x256, .f32⟩
  | .hbm, ⟨35, _⟩ => ⟨S1x256x256, .f32⟩
  | .hbm, ⟨36, _⟩ => ⟨S256x256, .f32⟩
  | .hbm, ⟨37, _⟩ => ⟨S1x256, .f32⟩
  | .hbm, ⟨38, _⟩ => ⟨S256, .f32⟩
  | .hbm, ⟨39, _⟩ => ⟨S1x256, .f32⟩
  | .hbm, ⟨40, _⟩ => ⟨S50000x256, .f32⟩
  | .hbm, ⟨41, _⟩ => ⟨S1x800000, .f32⟩
  | .hbm, ⟨42, _⟩ => ⟨S800000, .f32⟩
  | .hbm, ⟨43, _⟩ => ⟨S800000x1, .f32⟩
  | .hbm, ⟨44, _⟩ => ⟨S1x1x256, .f32⟩
  | .hbm, ⟨45, _⟩ => ⟨S1x256, .f32⟩
  | .hbm, ⟨46, _⟩ => ⟨S1x256, .f32⟩
  | .hbm, ⟨47, _⟩ => ⟨S256, .f32⟩
  | .hbm, ⟨48, _⟩ => ⟨S1x256, .f32⟩
  | .hbm, ⟨49, _⟩ => ⟨S1x256x256, .f32⟩
  | .hbm, ⟨50, _⟩ => ⟨S256x256, .f32⟩
  | .hbm, ⟨51, _⟩ => ⟨S1x256, .f32⟩
  | .hbm, ⟨52, _⟩ => ⟨S256, .f32⟩
  | .hbm, ⟨53, _⟩ => ⟨S1x256, .f32⟩
  | .hbm, ⟨54, _⟩ => ⟨S800000x256, .f32⟩
  | .hbm, ⟨55, _⟩ => ⟨S1x1x800000, .i32⟩
  | .hbm, ⟨56, _⟩ => ⟨S800000, .i32⟩
  | .hbm, ⟨57, _⟩ => ⟨S_, .f32⟩
  | .hbm, ⟨58, _⟩ => ⟨S50000x256, .f32⟩
  | .hbm, ⟨59, _⟩ => ⟨S800000x1, .i32⟩
  | .hbm, ⟨60, _⟩ => ⟨S50000x256, .f32⟩
  | .hbm, ⟨61, _⟩ => ⟨S1x256x256, .f32⟩
  | .hbm, ⟨62, _⟩ => ⟨S256x256, .f32⟩
  | .hbm, ⟨63, _⟩ => ⟨S1x256, .f32⟩
  | .hbm, ⟨64, _⟩ => ⟨S256, .f32⟩
  | .hbm, ⟨65, _⟩ => ⟨S1x256, .f32⟩
  | .hbm, ⟨66, _⟩ => ⟨S1x256x256, .f32⟩
  | .hbm, ⟨67, _⟩ => ⟨S256x256, .f32⟩
  | .hbm, ⟨68, _⟩ => ⟨S1x256, .f32⟩
  | .hbm, ⟨69, _⟩ => ⟨S256, .f32⟩
  | .hbm, ⟨70, _⟩ => ⟨S1x256, .f32⟩
  | .hbm, ⟨71, _⟩ => ⟨S50000x256, .f32⟩
  | .hbm, ⟨72, _⟩ => ⟨S1x50000x256, .f32⟩
  | .hbm, ⟨73, _⟩ => ⟨S1x50000x256, .f32⟩
  | .hbm, ⟨74, _⟩ => ⟨S2x50000x256, .f32⟩
  | .local _ .vmem, ⟨0, _⟩ => ⟨S3200x1, .f32⟩
  | .local _ .vmem, ⟨1, _⟩ => ⟨S3200x1, .f32⟩
  | .local _ .vmem, ⟨2, _⟩ => ⟨S1x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S3200x256, .f32⟩
  | .local _ .vmem, ⟨7, _⟩ => ⟨S3200x256, .f32⟩
  | .local _ .vmem, ⟨8, _⟩ => ⟨S2000x256, .f32⟩
  | .local _ .vmem, ⟨9, _⟩ => ⟨S2000x256, .f32⟩
  | .local _ .vmem, ⟨10, _⟩ => ⟨S256x256, .f32⟩
  | .local _ .vmem, ⟨11, _⟩ => ⟨S1x256, .f32⟩
  | .local _ .vmem, ⟨12, _⟩ => ⟨S256x256, .f32⟩
  | .local _ .vmem, ⟨13, _⟩ => ⟨S1x256, .f32⟩
  | .local _ .vmem, ⟨14, _⟩ => ⟨S2000x256, .f32⟩
  | .local _ .vmem, ⟨15, _⟩ => ⟨S2000x256, .f32⟩
  | .local _ .vmem, ⟨16, _⟩ => ⟨S3200x1, .f32⟩
  | .local _ .vmem, ⟨17, _⟩ => ⟨S3200x1, .f32⟩
  | .local _ .vmem, ⟨18, _⟩ => ⟨S1x256, .f32⟩
  | .local _ .vmem, ⟨19, _⟩ => ⟨S1x256, .f32⟩
  | .local _ .vmem, ⟨20, _⟩ => ⟨S256x256, .f32⟩
  | .local _ .vmem, ⟨21, _⟩ => ⟨S1x256, .f32⟩
  | .local _ .vmem, ⟨22, _⟩ => ⟨S3200x256, .f32⟩
  | .local _ .vmem, ⟨23, _⟩ => ⟨S3200x256, .f32⟩
  | .local _ .vmem, ⟨24, _⟩ => ⟨S2000x256, .f32⟩
  | .local _ .vmem, ⟨25, _⟩ => ⟨S2000x256, .f32⟩
  | .local _ .vmem, ⟨26, _⟩ => ⟨S256x256, .f32⟩
  | .local _ .vmem, ⟨27, _⟩ => ⟨S1x256, .f32⟩
  | .local _ .vmem, ⟨28, _⟩ => ⟨S256x256, .f32⟩
  | .local _ .vmem, ⟨29, _⟩ => ⟨S1x256, .f32⟩
  | .local _ .vmem, ⟨30, _⟩ => ⟨S2000x256, .f32⟩
  | .local _ .vmem, ⟨31, _⟩ => ⟨S2000x256, .f32⟩
  | _, _ => ⟨S2x2x800000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_0 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S3200x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![250], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S3200x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S3200x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x800000_S1x800000_0_0 : S2x800000.Slices ![0, 0] S1x800000
  shapeCasts_S1x800000_S800000 : S1x800000.ShapeCasts S800000
  shapeCasts_S800000_S800000x1 : S800000.ShapeCasts S800000x1
  slices_S2x1x256_S1x1x256_0_0_0 : S2x1x256.Slices ![0, 0, 0] S1x1x256
  shapeCasts_S1x1x256_S1x256 : S1x1x256.ShapeCasts S1x256
  slices_S2x256_S1x256_0_0 : S2x256.Slices ![0, 0] S1x256
  shapeCasts_S1x256_S256 : S1x256.ShapeCasts S256
  shapeCasts_S256_S1x256 : S256.ShapeCasts S1x256
  slices_S2x256x256_S1x256x256_0_0_0 : S2x256x256.Slices ![0, 0, 0] S1x256x256
  shapeCasts_S1x256x256_S256x256 : S1x256x256.ShapeCasts S256x256
  inb_S3200x1_S3200x1_0_0 : ∀ a, (![0, 0] : Fin 2 → Nat) a + S3200x1.size a ≤ S3200x1.size a
  h_S3200x1 : 0 < S3200x1.numel
  shapeCasts_S3200x1_S3200x1 : S3200x1.ShapeCasts S3200x1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S3200x1_S3200x256 : S3200x1.Broadcasts S3200x256
  broadcasts_S1x256_S3200x256 : S1x256.Broadcasts S3200x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S3200x256_S3200x256_0_0 : ∀ a, (![0, 0] : Fin 2 → Nat) a + S3200x256.size a ≤ S3200x256.size a
  h_S3200x256 : 0 < S3200x256.numel
  slices_S2x2x800000_S1x1x800000_0_1_0 : S2x2x800000.Slices ![0, 1, 0] S1x1x800000
  shapeCasts_S1x1x800000_S800000 : S1x1x800000.ShapeCasts S800000
  bcast_S_S50000x256 : S_.BroadcastsInDim S50000x256 (![] : Fin 0 → Fin S50000x256.rank)
  bcast_S800000_S800000x1_0 : S800000.BroadcastsInDim S800000x1 (![0] : Fin 1 → Fin S800000x1.rank)
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  broadcasts_S1x256_S2000x256 : S1x256.Broadcasts S2000x256
  slices_S2x800000_S1x800000_1_0 : S2x800000.Slices ![1, 0] S1x800000
  slices_S2x1x256_S1x1x256_1_0_0 : S2x1x256.Slices ![1, 0, 0] S1x1x256
  slices_S2x256_S1x256_1_0 : S2x256.Slices ![1, 0] S1x256
  slices_S2x256x256_S1x256x256_1_0_0 : S2x256x256.Slices ![1, 0, 0] S1x256x256
  slices_S2x2x800000_S1x1x800000_1_1_0 : S2x2x800000.Slices ![1, 1, 0] S1x1x800000
  bcast_S50000x256_S1x50000x256_1_2 : S50000x256.BroadcastsInDim S1x50000x256 (![1, 2] : Fin 2 → Fin S1x50000x256.rank)
  concatenates_S1x50000x256_S1x50000x256_S2x50000x256_d0 : Shape.Concatenates [S1x50000x256, S1x50000x256] S2x50000x256 0
  dot_S3200x256_S256x256_S3200x256_1_0_0_1_n_n_wf : DotDims.WF S3200x256 S256x256 S3200x256 [1] [0] [0] [1] [] []
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x1.size a ≤ S800000x1.size a
  hwx0_0 : ∀ i : grid0.Coords, EltTy.bits .f32 = 32 ∨ (Rect.block (s := S800000x1) S3200x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x256.size a
  hwx0_1 : ∀ i : grid0.Coords, EltTy.bits .f32 = 32 ∨ (Rect.block (s := S1x256) S1x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S3200x256.size a ≤ S800000x256.size a
  hwx0_5 : ∀ i : grid0.Coords, EltTy.bits .f32 = 32 ∨ (Rect.block (s := S800000x256) S3200x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S3200x1.size a ≤ S800000x1.size a
  hwx2_0 : ∀ i : grid2.Coords, EltTy.bits .f32 = 32 ∨ (Rect.block (s := S800000x1) S3200x1.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S3200x256.size a ≤ S800000x256.size a
  hwx2_5 : ∀ i : grid2.Coords, EltTy.bits .f32 = 32 ∨ (Rect.block (s := S800000x256) S3200x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x256.size a
  hwx3_3 : ∀ i : grid3.Coords, EltTy.bits .f32 = 32 ∨ (Rect.block (s := S256x256) S256x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x256.size a ≤ S50000x256.size a
  hwx3_5 : ∀ i : grid3.Coords, EltTy.bits .f32 = 32 ∨ (Rect.block (s := S50000x256) S2000x256.size (cc3_transform_5 i) (hinb3_5 i)).WholeWords (EltTy.packing .f32)

variable [Facts₀]

def dot_S3200x256_S256x256_S3200x256_1_0_0_1_n_n : DotDims S3200x256 S256x256 S3200x256 where
  lhsContracting := [1]
  rhsContracting := [0]
  lhsNonContracting := [0]
  rhsNonContracting := [1]
  lhsBatch := []
  rhsBatch := []
  wf := dot_S3200x256_S256x256_S3200x256_1_0_0_1_n_n_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v2) S3200x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S3200x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v18) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v23) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v32) S3200x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v37) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v39) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v42) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v43) S3200x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v48) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v50) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v53) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v55) S256x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v59) S2000x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S2x2x800000 : Shape := ⟨3, ![2, 2, 800000]⟩
abbrev S2x800000 : Shape := ⟨2, ![2, 800000]⟩
abbrev S2x1x256 : Shape := ⟨3, ![2, 1, 256]⟩
abbrev S2x256 : Shape := ⟨2, ![2, 256]⟩
abbrev S2x256x256 : Shape := ⟨3, ![2, 256, 256]⟩
abbrev S1x800000 : Shape := ⟨2, ![1, 800000]⟩
abbrev S800000 : Shape := ⟨1, ![800000]⟩
abbrev S800000x1 : Shape := ⟨2, ![800000, 1]⟩
abbrev S1x1x256 : Shape := ⟨3, ![1, 1, 256]⟩
abbrev S1x256 : Shape := ⟨2, ![1, 256]⟩
abbrev S800000x256 : Shape := ⟨2, ![800000, 256]⟩
abbrev S256 : Shape := ⟨1, ![256]⟩
abbrev S_ : Shape := ⟨0, ![]⟩
abbrev S1x256x256 : Shape := ⟨3, ![1, 256, 256]⟩
abbrev S256x256 : Shape := ⟨2, ![256, 256]⟩
abbrev S1x1x800000 : Shape := ⟨3, ![1, 1, 800000]⟩
abbrev S50000x256 : Shape := ⟨2, ![50000, 256]⟩
abbrev S1x50000x256 : Shape := ⟨3, ![1, 50000, 256]⟩
abbrev S2x50000x256 : Shape := ⟨3, ![2, 50000, 256]⟩

abbrev nBuf : Space → Nat
  | .hbm => 107
  | .vmem => 0
  | .smem => 0
  | _ => 0

abbrev bufTy : (tb : Table) → Fin (tcTables nBuf tb) → BufTy
  | .hbm, ⟨0, _⟩ => ⟨S2x2x800000, .i32⟩
  | .hbm, ⟨1, _⟩ => ⟨S2x800000, .f32⟩
  | .hbm, ⟨2, _⟩ => ⟨S2x1x256, .f32⟩
  | .hbm, ⟨3, _⟩ => ⟨S2x256, .f32⟩
  | .hbm, ⟨4, _⟩ => ⟨S2x256x256, .f32⟩
  | .hbm, ⟨5, _⟩ => ⟨S2x256, .f32⟩
  | .hbm, ⟨6, _⟩ => ⟨S2x256x256, .f32⟩
  | .hbm, ⟨7, _⟩ => ⟨S2x256, .f32⟩
  | .hbm, ⟨8, _⟩ => ⟨S2x256x256, .f32⟩
  | .hbm, ⟨9, _⟩ => ⟨S2x256, .f32⟩
  | .hbm, ⟨10, _⟩ => ⟨S1x800000, .f32⟩
  | .hbm, ⟨11, _⟩ => ⟨S800000, .f32⟩
  | .hbm, ⟨12, _⟩ => ⟨S800000x1, .f32⟩
  | .hbm, ⟨13, _⟩ => ⟨S1x1x256, .f32⟩
  | .hbm, ⟨14, _⟩ => ⟨S1x256, .f32⟩
  | .hbm, ⟨15, _⟩ => ⟨S800000x256, .f32⟩
  | .hbm, ⟨16, _⟩ => ⟨S1x256, .f32⟩
  | .hbm, ⟨17, _⟩ => ⟨S256, .f32⟩
  | .hbm, ⟨18, _⟩ => ⟨S1x256, .f32⟩
  | .hbm, ⟨19, _⟩ => ⟨S800000x256, .f32⟩
  | .hbm, ⟨20, _⟩ => ⟨S800000x256, .f32⟩
  | .hbm, ⟨21, _⟩ => ⟨S_, .f32⟩
  | .hbm, ⟨22, _⟩ => ⟨S800000x256, .f32⟩
  | .hbm, ⟨23, _⟩ => ⟨S800000x256, .f32⟩
  | .hbm, ⟨24, _⟩ => ⟨S1x256x256, .f32⟩
  | .hbm, ⟨25, _⟩ => ⟨S256x256, .f32⟩
  | .hbm, ⟨26, _⟩ => ⟨S800000x256, .f32⟩
  | .hbm, ⟨27, _⟩ => ⟨S1x256, .f32⟩
  | .hbm, ⟨28, _⟩ => ⟨S256, .f32⟩
  | .hbm, ⟨29, _⟩ => ⟨S1x256, .f32⟩
  | .hbm, ⟨30, _⟩ => ⟨S800000x256, .f32⟩
  | .hbm, ⟨31, _⟩ => ⟨S800000x256, .f32⟩
  | .hbm, ⟨32, _⟩ => ⟨S1x1x800000, .i32⟩
  | .hbm, ⟨33, _⟩ => ⟨S800000, .i32⟩
  | .hbm, ⟨34, _⟩ => ⟨S_, .f32⟩
  | .hbm, ⟨35, _⟩ => ⟨S50000x256, .f32⟩
  | .hbm, ⟨36, _⟩ => ⟨S800000x1, .i32⟩
  | .hbm, ⟨37, _⟩ => ⟨S50000x256, .f32⟩
  | .hbm, ⟨38, _⟩ => ⟨S1x256x256, .f32⟩
  | .hbm, ⟨39, _⟩ => ⟨S256x256, .f32⟩
  | .hbm, ⟨40, _⟩ => ⟨S50000x256, .f32⟩
  | .hbm, ⟨41, _⟩ => ⟨S1x256, .f32⟩
  | .hbm, ⟨42, _⟩ => ⟨S256, .f32⟩
  | .hbm, ⟨43, _⟩ => ⟨S1x256, .f32⟩
  | .hbm, ⟨44, _⟩ => ⟨S50000x256, .f32⟩
  | .hbm, ⟨45, _⟩ => ⟨S50000x256, .f32⟩
  | .hbm, ⟨46, _⟩ => ⟨S_, .f32⟩
  | .hbm, ⟨47, _⟩ => ⟨S50000x256, .f32⟩
  | .hbm, ⟨48, _⟩ => ⟨S50000x256, .f32⟩
  | .hbm, ⟨49, _⟩ => ⟨S1x256x256, .f32⟩
  | .hbm, ⟨50, _⟩ => ⟨S256x256, .f32⟩
  | .hbm, ⟨51, _⟩ => ⟨S50000x256, .f32⟩
  | .hbm, ⟨52, _⟩ => ⟨S1x256, .f32⟩
  | .hbm, ⟨53, _⟩ => ⟨S256, .f32⟩
  | .hbm, ⟨54, _⟩ => ⟨S1x256, .f32⟩
  | .hbm, ⟨55, _⟩ => ⟨S50000x256, .f32⟩
  | .hbm, ⟨56, _⟩ => ⟨S50000x256, .f32⟩
  | .hbm, ⟨57, _⟩ => ⟨S1x800000, .f32⟩
  | .hbm, ⟨58, _⟩ => ⟨S800000, .f32⟩
  | .hbm, ⟨59, _⟩ => ⟨S800000x1, .f32⟩
  | .hbm, ⟨60, _⟩ => ⟨S1x1x256, .f32⟩
  | .hbm, ⟨61, _⟩ => ⟨S1x256, .f32⟩
  | .hbm, ⟨62, _⟩ => ⟨S800000x256, .f32⟩
  | .hbm, ⟨63, _⟩ => ⟨S1x256, .f32⟩
  | .hbm, ⟨64, _⟩ => ⟨S256, .f32⟩
  | .hbm, ⟨65, _⟩ => ⟨S1x256, .f32⟩
  | .hbm, ⟨66, _⟩ => ⟨S800000x256, .f32⟩
  | .hbm, ⟨67, _⟩ => ⟨S800000x256, .f32⟩
  | .hbm, ⟨68, _⟩ => ⟨S_, .f32⟩
  | .hbm, ⟨69, _⟩ => ⟨S800000x256, .f32⟩
  | .hbm, ⟨70, _⟩ => ⟨S800000x256, .f32⟩
  | .hbm, ⟨71, _⟩ => ⟨S1x256x256, .f32⟩
  | .hbm, ⟨72, _⟩ => ⟨S256x256, .f32⟩
  | .hbm, ⟨73, _⟩ => ⟨S800000x256, .f32⟩
  | .hbm, ⟨74, _⟩ => ⟨S1x256, .f32⟩
  | .hbm, ⟨75, _⟩ => ⟨S256, .f32⟩
  | .hbm, ⟨76, _⟩ => ⟨S1x256, .f32⟩
  | .hbm, ⟨77, _⟩ => ⟨S800000x256, .f32⟩
  | .hbm, ⟨78, _⟩ => ⟨S800000x256, .f32⟩
  | .hbm, ⟨79, _⟩ => ⟨S1x1x800000, .i32⟩
  | .hbm, ⟨80, _⟩ => ⟨S800000, .i32⟩
  | .hbm, ⟨81, _⟩ => ⟨S_, .f32⟩
  | .hbm, ⟨82, _⟩ => ⟨S50000x256, .f32⟩
  | .hbm, ⟨83, _⟩ => ⟨S800000x1, .i32⟩
  | .hbm, ⟨84, _⟩ => ⟨S50000x256, .f32⟩
  | .hbm, ⟨85, _⟩ => ⟨S1x256x256, .f32⟩
  | .hbm, ⟨86, _⟩ => ⟨S256x256, .f32⟩
  | .hbm, ⟨87, _⟩ => ⟨S50000x256, .f32⟩
  | .hbm, ⟨88, _⟩ => ⟨S1x256, .f32⟩
  | .hbm, ⟨89, _⟩ => ⟨S256, .f32⟩
  | .hbm, ⟨90, _⟩ => ⟨S1x256, .f32⟩
  | .hbm, ⟨91, _⟩ => ⟨S50000x256, .f32⟩
  | .hbm, ⟨92, _⟩ => ⟨S50000x256, .f32⟩
  | .hbm, ⟨93, _⟩ => ⟨S_, .f32⟩
  | .hbm, ⟨94, _⟩ => ⟨S50000x256, .f32⟩
  | .hbm, ⟨95, _⟩ => ⟨S50000x256, .f32⟩
  | .hbm, ⟨96, _⟩ => ⟨S1x256x256, .f32⟩
  | .hbm, ⟨97, _⟩ => ⟨S256x256, .f32⟩
  | .hbm, ⟨98, _⟩ => ⟨S50000x256, .f32⟩
  | .hbm, ⟨99, _⟩ => ⟨S1x256, .f32⟩
  | .hbm, ⟨100, _⟩ => ⟨S256, .f32⟩
  | .hbm, ⟨101, _⟩ => ⟨S1x256, .f32⟩
  | .hbm, ⟨102, _⟩ => ⟨S50000x256, .f32⟩
  | .hbm, ⟨103, _⟩ => ⟨S50000x256, .f32⟩
  | .hbm, ⟨104, _⟩ => ⟨S1x50000x256, .f32⟩
  | .hbm, ⟨105, _⟩ => ⟨S1x50000x256, .f32⟩
  | .hbm, ⟨106, _⟩ => ⟨S2x50000x256, .f32⟩
  | _, _ => ⟨S2x2x800000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_1 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_2 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_cst_3 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_cst_4 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  bcast_S800000_S800000x1_0 : S800000.BroadcastsInDim S800000x1 (![0] : Fin 1 → Fin S800000x1.rank)
  slices_S2x1x256_S1x1x256_0_0_0 : S2x1x256.Slices ![0, 0, 0] S1x1x256
  shapeCasts_S1x1x256_S1x256 : S1x1x256.ShapeCasts S1x256
  slices_S2x256_S1x256_0_0 : S2x256.Slices ![0, 0] S1x256
  shapeCasts_S1x256_S256 : S1x256.ShapeCasts S256
  bcast_S256_S1x256_1 : S256.BroadcastsInDim S1x256 (![1] : Fin 1 → Fin S1x256.rank)
  bcast_S1x256_S800000x256_0_1 : S1x256.BroadcastsInDim S800000x256 (![0, 1] : Fin 2 → Fin S800000x256.rank)
  bcast_S_S800000x256 : S_.BroadcastsInDim S800000x256 (![] : Fin 0 → Fin S800000x256.rank)
  slices_S2x256x256_S1x256x256_0_0_0 : S2x256x256.Slices ![0, 0, 0] S1x256x256
  shapeCasts_S1x256x256_S256x256 : S1x256x256.ShapeCasts S256x256
  slices_S2x2x800000_S1x1x800000_0_1_0 : S2x2x800000.Slices ![0, 1, 0] S1x1x800000
  shapeCasts_S1x1x800000_S800000 : S1x1x800000.ShapeCasts S800000
  bcast_S_S50000x256 : S_.BroadcastsInDim S50000x256 (![] : Fin 0 → Fin S50000x256.rank)
  bcast_S1x256_S50000x256_0_1 : S1x256.BroadcastsInDim S50000x256 (![0, 1] : Fin 2 → Fin S50000x256.rank)
  slices_S2x800000_S1x800000_1_0 : S2x800000.Slices ![1, 0] S1x800000
  slices_S2x1x256_S1x1x256_1_0_0 : S2x1x256.Slices ![1, 0, 0] S1x1x256
  slices_S2x256_S1x256_1_0 : S2x256.Slices ![1, 0] S1x256
  slices_S2x256x256_S1x256x256_1_0_0 : S2x256x256.Slices ![1, 0, 0] S1x256x256
  slices_S2x2x800000_S1x1x800000_1_1_0 : S2x2x800000.Slices ![1, 1, 0] S1x1x800000
  bcast_S50000x256_S1x50000x256_1_2 : S50000x256.BroadcastsInDim S1x50000x256 (![1, 2] : Fin 2 → Fin S1x50000x256.rank)
  concatenates_S1x50000x256_S1x50000x256_S2x50000x256_d0 : Shape.Concatenates [S1x50000x256, S1x50000x256] S2x50000x256 0
  dot_S800000x1_S1x256_S800000x256_1_0_0_1_n_n_wf : DotDims.WF S800000x1 S1x256 S800000x256 [1] [0] [0] [1] [] []
  dot_S800000x256_S256x256_S800000x256_1_0_0_1_n_n_wf : DotDims.WF S800000x256 S256x256 S800000x256 [1] [0] [0] [1] [] []
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []

variable [Facts₀]

def dot_S800000x1_S1x256_S800000x256_1_0_0_1_n_n : DotDims S800000x1 S1x256 S800000x256 where
  lhsContracting := [1]
  rhsContracting := [0]
  lhsNonContracting := [0]
  rhsNonContracting := [1]
  lhsBatch := []
  rhsBatch := []
  wf := dot_S800000x1_S1x256_S800000x256_1_0_0_1_n_n_wf
def dot_S800000x256_S256x256_S800000x256_1_0_0_1_n_n : DotDims S800000x256 S256x256 S800000x256 where
  lhsContracting := [1]
  rhsContracting := [0]
  lhsNonContracting := [0]
  rhsNonContracting := [1]
  lhsBatch := []
  rhsBatch := []
  wf := dot_S800000x256_S256x256_S800000x256_1_0_0_1_n_n_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.KFold.lean ====
/-
  The buffers of the idealized kernel program at each boundary of @main, read back to the launch memory.

  @main alternates stretches of host operations with the four kernel regions. A host stretch writes only its own
  result buffers and a region writes only its output array, so: every argument array is unchanged at every boundary; a
  region's input arrays are the host operations' terms of the arguments (slices and reshapes of one layer's parameters,
  and for a node kernel the scatter-add of the edge kernel's output); a region's output array stays what the region left
  until the final concatenation reads it.
-/
import proofs.«146717_j90881507983367_1_alg».proof.Proof.KernelIdealFrame
import Idealize.ShloMosaic.Lib.StableHlo.Run

set_option maxRecDepth 16384

noncomputable section

namespace Cert.KernelIdeal.KFold

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- A stretch of host operations leaves a buffer none of them writes as it was. -/
local macro "host_keeps" : tactic => `(tactic| (
  refine StableHlo.after_of_forall_not_mem _ _ (List.forall_iff_forall_mem.mp ?_)
  simp only [hostOps0, hostOps1, hostOps2, hostOps3, hostOps4, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

/-! ## The argument arrays at the boundaries before, between and after the first three regions -/

theorem W1_arg0 (c : Dev nD) : W1 m ρ c (Proc.devRef .tc main_arg0) = m ((c : Thread nD τ).loc main_arg0) :=
  (by host_keeps : W1 m ρ c (Proc.devRef .tc main_arg0) = W0 m ρ c (Proc.devRef .tc main_arg0)).trans rfl
theorem W1_arg1 (c : Dev nD) : W1 m ρ c (Proc.devRef .tc main_arg1) = m ((c : Thread nD τ).loc main_arg1) :=
  (by host_keeps : W1 m ρ c (Proc.devRef .tc main_arg1) = W0 m ρ c (Proc.devRef .tc main_arg1)).trans rfl
theorem W1_arg2 (c : Dev nD) : W1 m ρ c (Proc.devRef .tc main_arg2) = m ((c : Thread nD τ).loc main_arg2) :=
  (by host_keeps : W1 m ρ c (Proc.devRef .tc main_arg2) = W0 m ρ c (Proc.devRef .tc main_arg2)).trans rfl
theorem W1_arg3 (c : Dev nD) : W1 m ρ c (Proc.devRef .tc main_arg3) = m ((c : Thread nD τ).loc main_arg3) :=
  (by host_keeps : W1 m ρ c (Proc.devRef .tc main_arg3) = W0 m ρ c (Proc.devRef .tc main_arg3)).trans rfl
theorem W1_arg4 (c : Dev nD) : W1 m ρ c (Proc.devRef .tc main_arg4) = m ((c : Thread nD τ).loc main_arg4) :=
  (by host_keeps : W1 m ρ c (Proc.devRef .tc main_arg4) = W0 m ρ c (Proc.devRef .tc main_arg4)).trans rfl
theorem W1_arg5 (c : Dev nD) : W1 m ρ c (Proc.devRef .tc main_arg5) = m ((c : Thread nD τ).loc main_arg5) :=
  (by host_keeps : W1 m ρ c (Proc.devRef .tc main_arg5) = W0 m ρ c (Proc.devRef .tc main_arg5)).trans rfl
theorem W1_arg6 (c : Dev nD) : W1 m ρ c (Proc.devRef .tc main_arg6) = m ((c : Thread nD τ).loc main_arg6) :=
  (by host_keeps : W1 m ρ c (Proc.devRef .tc main_arg6) = W0 m ρ c (Proc.devRef .tc main_arg6)).trans rfl
theorem W1_arg7 (c : Dev nD) : W1 m ρ c (Proc.devRef .tc main_arg7) = m ((c : Thread nD τ).loc main_arg7) :=
  (by host_keeps : W1 m ρ c (Proc.devRef .tc main_arg7) = W0 m ρ c (Proc.devRef .tc main_arg7)).trans rfl
theorem W1_arg8 (c : Dev nD) : W1 m ρ c (Proc.devRef .tc main_arg8) = m ((c : Thread nD τ).loc main_arg8) :=
  (by host_keeps : W1 m ρ c (Proc.devRef .tc main_arg8) = W0 m ρ c (Proc.devRef .tc main_arg8)).trans rfl
theorem W1_arg9 (c : Dev nD) : W1 m ρ c (Proc.devRef .tc main_arg9) = m ((c : Thread nD τ).loc main_arg9) :=
  (by host_keeps : W1 m ρ c (Proc.devRef .tc main_arg9) = W0 m ρ c (Proc.devRef .tc main_arg9)).trans rfl

theorem W2_arg0 (c : Dev nD) : W2 m ρ c (Proc.devRef .tc main_arg0) = m ((c : Thread nD τ).loc main_arg0) :=
  (W2_of_ne m ρ c main_arg0 (by decide)).trans (W1_arg0 m ρ c)
theorem W2_arg1 (c : Dev nD) : W2 m ρ c (Proc.devRef .tc main_arg1) = m ((c : Thread nD τ).loc main_arg1) :=
  (W2_of_ne m ρ c main_arg1 (by decide)).trans (W1_arg1 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_arg8 (c : Dev nD) : W2 m ρ c (Proc.devRef .tc main_arg8) = m ((c : Thread nD τ).loc main_arg8) :=
  (W2_of_ne m ρ c main_arg8 (by decide)).trans (W1_arg8 m ρ c)
theorem W2_arg9 (c : Dev nD) : W2 m ρ c (Proc.devRef .tc main_arg9) = m ((c : Thread nD τ).loc main_arg9) :=
  (W2_of_ne m ρ c main_arg9 (by decide)).trans (W1_arg9 m ρ c)

theorem W3_arg0 (c : Dev nD) : W3 m ρ c (Proc.devRef .tc main_arg0) = m ((c : Thread nD τ).loc main_arg0) :=
  (by host_keeps : W3 m ρ c (Proc.devRef .tc main_arg0) = W2 m ρ c (Proc.devRef .tc main_arg0)).trans (W2_arg0 m ρ c)
theorem W3_arg1 (c : Dev nD) : W3 m ρ c (Proc.devRef .tc main_arg1) = m ((c : Thread nD τ).loc main_arg1) :=
  (by host_keeps : W3 m ρ c (Proc.devRef .tc main_arg1) = W2 m ρ c (Proc.devRef .tc main_arg1)).trans (W2_arg1 m ρ c)
theorem W3_arg2 (c : Dev nD) : W3 m ρ c (Proc.devRef .tc main_arg2) = m ((c : Thread nD τ).loc main_arg2) :=
  (by host_keeps : W3 m ρ c (Proc.devRef .tc main_arg2) = W2 m ρ c (Proc.devRef .tc main_arg2)).trans (W2_arg2 m ρ c)
theorem W3_arg3 (c : Dev nD) : W3 m ρ c (Proc.devRef .tc main_arg3) = m ((c : Thread nD τ).loc main_arg3) :=
  (by host_keeps : W3 m ρ c (Proc.devRef .tc main_arg3) = W2 m ρ c (Proc.devRef .tc main_arg3)).trans (W2_arg3 m ρ c)
theorem W3_arg4 (c : Dev nD) : W3 m ρ c (Proc.devRef .tc main_arg4) = m ((c : Thread nD τ).loc main_arg4) :=
  (by host_keeps : W3 m ρ c (Proc.devRef .tc main_arg4) = W2 m ρ c (Proc.devRef .tc main_arg4)).trans (W2_arg4 m ρ c)
theorem W3_arg5 (c : Dev nD) : W3 m ρ c (Proc.devRef .tc main_arg5) = m ((c : Thread nD τ).loc main_arg5) :=
  (by host_keeps : W3 m ρ c (Proc.devRef .tc main_arg5) = W2 m ρ c (Proc.devRef .tc main_arg5)).trans (W2_arg5 m ρ c)
theorem W3_arg6 (c : Dev nD) : W3 m ρ c (Proc.devRef .tc main_arg6) = m ((c : Thread nD τ).loc main_arg6) :=
  (by host_keeps : W3 m ρ c (Proc.devRef .tc main_arg6) = W2 m ρ c (Proc.devRef .tc main_arg6)).trans (W2_arg6 m ρ c)
theorem W3_arg7 (c : Dev nD) : W3 m ρ c (Proc.devRef .tc main_arg7) = m ((c : Thread nD τ).loc main_arg7) :=
  (by host_keeps : W3 m ρ c (Proc.devRef .tc main_arg7) = W2 m ρ c (Proc.devRef .tc main_arg7)).trans (W2_arg7 m ρ c)
theorem W3_arg8 (c : Dev nD) : W3 m ρ c (Proc.devRef .tc main_arg8) = m ((c : Thread nD τ).loc main_arg8) :=
  (by host_keeps : W3 m ρ c (Proc.devRef .tc main_arg8) = W2 m ρ c (Proc.devRef .tc main_arg8)).trans (W2_arg8 m ρ c)
theorem W3_arg9 (c : Dev nD) : W3 m ρ c (Proc.devRef .tc main_arg9) = m ((c : Thread nD τ).loc main_arg9) :=
  (by host_keeps : W3 m ρ c (Proc.devRef .tc main_arg9) = W2 m ρ c (Proc.devRef .tc main_arg9)).trans (W2_arg9 m ρ c)

theorem W4_arg0 (c : Dev nD) : W4 m ρ c (Proc.devRef .tc main_arg0) = m ((c : Thread nD τ).loc main_arg0) :=
  (W4_of_ne m ρ c main_arg0 (by decide)).trans (W3_arg0 m ρ c)
theorem W4_arg1 (c : Dev nD) : W4 m ρ c (Proc.devRef .tc main_arg1) = m ((c : Thread nD τ).loc main_arg1) :=
  (W4_of_ne m ρ c main_arg1 (by decide)).trans (W3_arg1 m ρ c)
theorem W4_arg2 (c : Dev nD) : W4 m ρ c (Proc.devRef .tc main_arg2) = m ((c : Thread nD τ).loc main_arg2) :=
  (W4_of_ne m ρ c main_arg2 (by decide)).trans (W3_arg2 m ρ c)
theorem W4_arg3 (c : Dev nD) : W4 m ρ c (Proc.devRef .tc main_arg3) = m ((c : Thread nD τ).loc main_arg3) :=
  (W4_of_ne m ρ c main_arg3 (by decide)).trans (W3_arg3 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W4_arg5 (c : Dev nD) : W4 m ρ c (Proc.devRef .tc main_arg5) = m ((c : Thread nD τ).loc main_arg5) :=
  (W4_of_ne m ρ c main_arg5 (by decide)).trans (W3_arg5 m ρ c)
theorem W4_arg6 (c : Dev nD) : W4 m ρ c (Proc.devRef .tc main_arg6) = m ((c : Thread nD τ).loc main_arg6) :=
  (W4_of_ne m ρ c main_arg6 (by decide)).trans (W3_arg6 m ρ c)
theorem W4_arg7 (c : Dev nD) : W4 m ρ c (Proc.devRef .tc main_arg7) = m ((c : Thread nD τ).loc main_arg7) :=
  (W4_of_ne m ρ c main_arg7 (by decide)).trans (W3_arg7 m ρ c)
theorem W4_arg8 (c : Dev nD) : W4 m ρ c (Proc.devRef .tc main_arg8) = m ((c : Thread nD τ).loc main_arg8) :=
  (W4_of_ne m ρ c main_arg8 (by decide)).trans (W3_arg8 m ρ c)
theorem W4_arg9 (c : Dev nD) : W4 m ρ c (Proc.devRef .tc main_arg9) = m ((c : Thread nD τ).loc main_arg9) :=
  (W4_of_ne m ρ c main_arg9 (by decide)).trans (W3_arg9 m ρ c)

theorem W5_arg0 (c : Dev nD) : W5 m ρ c (Proc.devRef .tc main_arg0) = m ((c : Thread nD τ).loc main_arg0) :=
  (by host_keeps : W5 m ρ c (Proc.devRef .tc main_arg0) = W4 m ρ c (Proc.devRef .tc main_arg0)).trans (W4_arg0 m ρ c)
theorem W5_arg1 (c : Dev nD) : W5 m ρ c (Proc.devRef .tc main_arg1) = m ((c : Thread nD τ).loc main_arg1) :=
  (by host_keeps : W5 m ρ c (Proc.devRef .tc main_arg1) = W4 m ρ c (Proc.devRef .tc main_arg1)).trans (W4_arg1 m ρ c)
theorem W5_arg2 (c : Dev nD) : W5 m ρ c (Proc.devRef .tc main_arg2) = m ((c : Thread nD τ).loc main_arg2) :=
  (by host_keeps : W5 m ρ c (Proc.devRef .tc main_arg2) = W4 m ρ c (Proc.devRef .tc main_arg2)).trans (W4_arg2 m ρ c)
theorem W5_arg3 (c : Dev nD) : W5 m ρ c (Proc.devRef .tc main_arg3) = m ((c : Thread nD τ).loc main_arg3) :=
  (by host_keeps : W5 m ρ c (Proc.devRef .tc main_arg3) = W4 m ρ c (Proc.devRef .tc main_arg3)).trans (W4_arg3 m ρ c)
theorem W5_arg4 (c : Dev nD) : W5 m ρ c (Proc.devRef .tc main_arg4) = m ((c : Thread nD τ).loc main_arg4) :=
  (by host_keeps : W5 m ρ c (Proc.devRef .tc main_arg4) = W4 m ρ c (Proc.devRef .tc main_arg4)).trans (W4_arg4 m ρ c)
theorem W5_arg5 (c : Dev nD) : W5 m ρ c (Proc.devRef .tc main_arg5) = m ((c : Thread nD τ).loc main_arg5) :=
  (by host_keeps : W5 m ρ c (Proc.devRef .tc main_arg5) = W4 m ρ c (Proc.devRef .tc main_arg5)).trans (W4_arg5 m ρ c)
theorem W5_arg6 (c : Dev nD) : W5 m ρ c (Proc.devRef .tc main_arg6) = m ((c : Thread nD τ).loc main_arg6) :=
  (by host_keeps : W5 m ρ c (Proc.devRef .tc main_arg6) = W4 m ρ c (Proc.devRef .tc main_arg6)).trans (W4_arg6 m ρ c)
theorem W5_arg7 (c : Dev nD) : W5 m ρ c (Proc.devRef .tc main_arg7) = m ((c : Thread nD τ).loc main_arg7) :=
  (by host_keeps : W5 m ρ c (Proc.devRef .tc main_arg7) = W4 m ρ c (Proc.devRef .tc main_arg7)).trans (W4_arg7 m ρ c)
theorem W5_arg8 (c : Dev nD) : W5 m ρ c (Proc.devRef .tc main_arg8) = m ((c : Thread nD τ).loc main_arg8) :=
  (by host_keeps : W5 m ρ c (Proc.devRef .tc main_arg8) = W4 m ρ c (Proc.devRef .tc main_arg8)).trans (W4_arg8 m ρ c)
theorem W5_arg9 (c : Dev nD) : W5 m ρ c (Proc.devRef .tc main_arg9) = m ((c : Thread nD τ).loc main_arg9) :=
  (by host_keeps : W5 m ρ c (Proc.devRef .tc main_arg9) = W4 m ρ c (Proc.devRef .tc main_arg9)).trans (W4_arg9 m ρ c)

theorem W6_arg0 (c : Dev nD) : W6 m ρ c (Proc.devRef .tc main_arg0) = m ((c : Thread nD τ).loc main_arg0) :=
  (W6_of_ne m ρ c main_arg0 (by decide)).trans (W5_arg0 m ρ c)
theorem W6_arg1 (c : Dev nD) : W6 m ρ c (Proc.devRef .tc main_arg1) = m ((c : Thread nD τ).loc main_arg1) :=
  (W6_of_ne m ρ c main_arg1 (by decide)).trans (W5_arg1 m ρ c)
theorem W6_arg2 (c : Dev nD) : W6 m ρ c (Proc.devRef .tc main_arg2) = m ((c : Thread nD τ).loc main_arg2) :=
  (W6_of_ne m ρ c main_arg2 (by decide)).trans (W5_arg2 m ρ c)
theorem W6_arg3 (c : Dev nD) : W6 m ρ c (Proc.devRef .tc main_arg3) = m ((c : Thread nD τ).loc main_arg3) :=
  (W6_of_ne m ρ c main_arg3 (by decide)).trans (W5_arg3 m ρ c)
theorem W6_arg4 (c : Dev nD) : W6 m ρ c (Proc.devRef .tc main_arg4) = m ((c : Thread nD τ).loc main_arg4) :=
  (W6_of_ne m ρ c main_arg4 (by decide)).trans (W5_arg4 m ρ c)
theorem W6_arg5 (c : Dev nD) : W6 m ρ c (Proc.devRef .tc main_arg5) = m ((c : Thread nD τ).loc main_arg5) :=
  (W6_of_ne m ρ c main_arg5 (by decide)).trans (W5_arg5 m ρ c)
theorem W6_arg6 (c : Dev nD) : W6 m ρ c (Proc.devRef .tc main_arg6) = m ((c : Thread nD τ).loc main_arg6) :=
  (W6_of_ne m ρ c main_arg6 (by decide)).trans (W5_arg6 m ρ c)
theorem W6_arg7 (c : Dev nD) : W6 m ρ c (Proc.devRef .tc main_arg7) = m ((c : Thread nD τ).loc main_arg7) :=
  (W6_of_ne m ρ c main_arg7 (by decide)).trans (W5_arg7 m ρ c)
theorem W6_arg8 (c : Dev nD) : W6 m ρ c (Proc.devRef .tc main_arg8) = m ((c : Thread nD τ).loc main_arg8) :=
  (W6_of_ne m ρ c main_arg8 (by decide)).trans (W5_arg8 m ρ c)
theorem W6_arg9 (c : Dev nD) : W6 m ρ c (Proc.devRef .tc main_arg9) = m ((c : Thread nD τ).loc main_arg9) :=
  (W6_of_ne m ρ c main_arg9 (by decide)).trans (W5_arg9 m ρ c)

/-! ## What each region finds in its input arrays -/

/-- Layer 0's edge kernel finds in `main_v2` a slice of argument 1, reshaped. -/
theorem V1_v2 (c : Dev nD) : V1 m ρ c main_v2 = shapeCast _ (shapeCast _ (extractStridedSlice S1x800000 ![0, 0] (m ((c : Thread nD τ).loc main_arg1)) slices_S2x800000_S1x800000_0_0) shapeCasts_S1x800000_S800000) shapeCasts_S800000_S800000x1 := by
  show W1 m ρ c (Proc.devRef .tc main_v2) = _
  dsimp only [W1, hostOps0]
  after_results
  rfl
/-- Layer 0's edge kernel finds in `main_v4` a slice of argument 2, reshaped. -/
theorem V1_v4 (c : Dev nD) : V1 m ρ c main_v4 = shapeCast _ (extractStridedSlice S1x1x256 ![0, 0, 0] (m ((c : Thread nD τ).loc main_arg2)) slices_S2x1x256_S1x1x256_0_0_0) shapeCasts_S1x1x256_S1x256 := by
  show W1 m ρ c (Proc.devRef .tc main_v4) = _
  dsimp only [W1, hostOps0]
  after_results
  rfl
/-- Layer 0's edge kernel finds in `main_v7` a slice of argument 3, reshaped. -/
theorem V1_v7 (c : Dev nD) : V1 m ρ c main_v7 = shapeCast _ (shapeCast _ (extractStridedSlice S1x256 ![0, 0] (m ((c : Thread nD τ).loc main_arg3)) slices_S2x256_S1x256_0_0) shapeCasts_S1x256_S256) shapeCasts_S256_S1x256 := by
  show W1 m ρ c (Proc.devRef .tc main_v7) = _
  dsimp only [W1, hostOps0]
  after_results
  rfl
/-- Layer 0's edge kernel finds in `main_v9` a slice of argument 4, reshaped. -/
theorem V1_v9 (c : Dev nD) : V1 m ρ c main_v9 = shapeCast _ (extractStridedSlice S1x256x256 ![0, 0, 0] (m ((c : Thread nD τ).loc main_arg4)) slices_S2x256x256_S1x256x256_0_0_0) shapeCasts_S1x256x256_S256x256 := by
  show W1 m ρ c (Proc.devRef .tc main_v9) = _
  dsimp only [W1, hostOps0]
  after_results
  rfl
/-- Layer 0's edge kernel finds in `main_v12` a slice of argument 5, reshaped. -/
theorem V1_v12 (c : Dev nD) : V1 m ρ c main_v12 = shapeCast _ (shapeCast _ (extractStridedSlice S1x256 ![0, 0] (m ((c : Thread nD τ).loc main_arg5)) slices_S2x256_S1x256_0_0) shapeCasts_S1x256_S256) shapeCasts_S256_S1x256 := by
  show W1 m ρ c (Proc.devRef .tc main_v12) = _
  dsimp only [W1, hostOps0]
  after_results
  rfl
/-- Layer 0's node kernel finds in `main_v18` the scatter-add, by destination node, of the edge kernel's output. -/
theorem V3_v18 (c : Dev nD) : V3 m ρ c main_v18 = Host.scatterAdd scatter_S50000x256_S800000x1_S800000x256_1_0_0_1 (broadcastInDim S50000x256 ![] bcast_S_S50000x256 (constant S_ .f32 0x00000000#32)) (broadcastInDim S800000x1 ![0] bcast_S800000_S800000x1_0 (shapeCast _ (extractStridedSlice S1x1x800000 ![0, 1, 0] (m ((c : Thread nD τ).loc main_arg0)) slices_S2x2x800000_S1x1x800000_0_1_0) shapeCasts_S1x1x800000_S800000)) ((dat0 (V1 m ρ) c).arrAt 5 cfg0.N) := by
  show W3 m ρ c (Proc.devRef .tc main_v18) = _
  dsimp only [W3, hostOps1]
  after_results
  rw [W2_arg0 m ρ c, (W2_arr m ρ c 5 : W2 m ρ c (Proc.devRef .tc main_v13) = _)]
  rfl
/-- Layer 0's node kernel finds in `main_v20` a slice of argument 6, reshaped. -/
theorem V3_v20 (c : Dev nD) : V3 m ρ c main_v20 = shapeCast _ (extractStridedSlice S1x256x256 ![0, 0, 0] (m ((c : Thread nD τ).loc main_arg6)) slices_S2x256x256_S1x256x256_0_0_0) shapeCasts_S1x256x256_S256x256 := by
  show W3 m ρ c (Proc.devRef .tc main_v20) = _
  dsimp only [W3, hostOps1]
  after_results
  rw [W2_arg6 m ρ c]
  rfl
/-- Layer 0's node kernel finds in `main_v23` a slice of argument 7, reshaped. -/
theorem V3_v23 (c : Dev nD) : V3 m ρ c main_v23 = shapeCast _ (shapeCast _ (extractStridedSlice S1x256 ![0, 0] (m ((c : Thread nD τ).loc main_arg7)) slices_S2x256_S1x256_0_0) shapeCasts_S1x256_S256) shapeCasts_S256_S1x256 := by
  show W3 m ρ c (Proc.devRef .tc main_v23) = _
  dsimp only [W3, hostOps1]
  after_results
  rw [W2_arg7 m ρ c]
  rfl
/-- Layer 0's node kernel finds in `main_v25` a slice of argument 8, reshaped. -/
theorem V3_v25 (c : Dev nD) : V3 m ρ c main_v25 = shapeCast _ (extractStridedSlice S1x256x256 ![0, 0, 0] (m ((c : Thread nD τ).loc main_arg8)) slices_S2x256x256_S1x256x256_0_0_0) shapeCasts_S1x256x256_S256x256 := by
  show W3 m ρ c (Proc.devRef .tc main_v25) = _
  dsimp only [W3, hostOps1]
  after_results
  rw [W2_arg8 m ρ c]
  rfl
/-- Layer 0's node kernel finds in `main_v28` a slice of argument 9, reshaped. -/
theorem V3_v28 (c : Dev nD) : V3 m ρ c main_v28 = shapeCast _ (shapeCast _ (extractStridedSlice S1x256 ![0, 0] (m ((c : Thread nD τ).loc main_arg9)) slices_S2x256_S1x256_0_0) shapeCasts_S1x256_S256) shapeCasts_S256_S1x256 := by
  show W3 m ρ c (Proc.devRef .tc main_v28) = _
  dsimp only [W3, hostOps1]
  after_results
  rw [W2_arg9 m ρ c]
  rfl

/-- Layer 1's edge kernel finds in `main_v32` a slice of argument 1, reshaped. -/
theorem V5_v32 (c : Dev nD) : V5 m ρ c main_v32 = shapeCast _ (shapeCast _ (extractStridedSlice S1x800000 ![1, 0] (m ((c : Thread nD τ).loc main_arg1)) slices_S2x800000_S1x800000_1_0) shapeCasts_S1x800000_S800000) shapeCasts_S800000_S800000x1 := by
  show W5 m ρ c (Proc.devRef .tc main_v32) = _
  dsimp only [W5, hostOps2]
  after_results
  rw [W4_arg1 m ρ c]
  rfl
/-- Layer 1's edge kernel finds in `main_v34` a slice of argument 2, reshaped. -/
theorem V5_v34 (c : Dev nD) : V5 m ρ c main_v34 = shapeCast _ (extractStridedSlice S1x1x256 ![1, 0, 0] (m ((c : Thread nD τ).loc main_arg2)) slices_S2x1x256_S1x1x256_1_0_0) shapeCasts_S1x1x256_S1x256 := by
  show W5 m ρ c (Proc.devRef .tc main_v34) = _
  dsimp only [W5, hostOps2]
  after_results
  rw [W4_arg2 m ρ c]
  rfl
/-- Layer 1's edge kernel finds in `main_v37` a slice of argument 3, reshaped. -/
theorem V5_v37 (c : Dev nD) : V5 m ρ c main_v37 = shapeCast _ (shapeCast _ (extractStridedSlice S1x256 ![1, 0] (m ((c : Thread nD τ).loc main_arg3)) slices_S2x256_S1x256_1_0) shapeCasts_S1x256_S256) shapeCasts_S256_S1x256 := by
  show W5 m ρ c (Proc.devRef .tc main_v37) = _
  dsimp only [W5, hostOps2]
  after_results
  rw [W4_arg3 m ρ c]
  rfl
/-- Layer 1's edge kernel finds in `main_v39` a slice of argument 4, reshaped. -/
theorem V5_v39 (c : Dev nD) : V5 m ρ c main_v39 = shapeCast _ (extractStridedSlice S1x256x256 ![1, 0, 0] (m ((c : Thread nD τ).loc main_arg4)) slices_S2x256x256_S1x256x256_1_0_0) shapeCasts_S1x256x256_S256x256 := by
  show W5 m ρ c (Proc.devRef .tc main_v39) = _
  dsimp only [W5, hostOps2]
  after_results
  rw [W4_arg4 m ρ c]
  rfl
/-- Layer 1's edge kernel finds in `main_v42` a slice of argument 5, reshaped. -/
theorem V5_v42 (c : Dev nD) : V5 m ρ c main_v42 = shapeCast _ (shapeCast _ (extractStridedSlice S1x256 ![1, 0] (m ((c : Thread nD τ).loc main_arg5)) slices_S2x256_S1x256_1_0) shapeCasts_S1x256_S256) shapeCasts_S256_S1x256 := by
  show W5 m ρ c (Proc.devRef .tc main_v42) = _
  dsimp only [W5, hostOps2]
  after_results
  rw [W4_arg5 m ρ c]
  rfl
/-- Layer 1's node kernel finds in `main_v48` the scatter-add, by destination node, of the edge kernel's output. -/
theorem V7_v48 (c : Dev nD) : V7 m ρ c main_v48 = Host.scatterAdd scatter_S50000x256_S800000x1_S800000x256_1_0_0_1 (broadcastInDim S50000x256 ![] bcast_S_S50000x256 (constant S_ .f32 0x00000000#32)) (broadcastInDim S800000x1 ![0] bcast_S800000_S800000x1_0 (shapeCast _ (extractStridedSlice S1x1x800000 ![1, 1, 0] (m ((c : Thread nD τ).loc main_arg0)) slices_S2x2x800000_S1x1x800000_1_1_0) shapeCasts_S1x1x800000_S800000)) ((dat2 (V5 m ρ) c).arrAt 5 cfg2.N) := by
  show W7 m ρ c (Proc.devRef .tc main_v48) = _
  dsimp only [W7, hostOps3]
  after_results
  rw [W6_arg0 m ρ c, (W6_arr m ρ c 5 : W6 m ρ c (Proc.devRef .tc main_v43) = _)]
  rfl
/-- Layer 1's node kernel finds in `main_v50` a slice of argument 6, reshaped. -/
theorem V7_v50 (c : Dev nD) : V7 m ρ c main_v50 = shapeCast _ (extractStridedSlice S1x256x256 ![1, 0, 0] (m ((c : Thread nD τ).loc main_arg6)) slices_S2x256x256_S1x256x256_1_0_0) shapeCasts_S1x256x256_S256x256 := by
  show W7 m ρ c (Proc.devRef .tc main_v50) = _
  dsimp only [W7, hostOps3]
  after_results
  rw [W6_arg6 m ρ c]
  rfl
/-- Layer 1's node kernel finds in `main_v53` a slice of argument 7, reshaped. -/
theorem V7_v53 (c : Dev nD) : V7 m ρ c main_v53 = shapeCast _ (shapeCast _ (extractStridedSlice S1x256 ![1, 0] (m ((c : Thread nD τ).loc main_arg7)) slices_S2x256_S1x256_1_0) shapeCasts_S1x256_S256) shapeCasts_S256_S1x256 := by
  show W7 m ρ c (Proc.devRef .tc main_v53) = _
  dsimp only [W7, hostOps3]
  after_results
  rw [W6_arg7 m ρ c]
  rfl
/-- Layer 1's node kernel finds in `main_v55` a slice of argument 8, reshaped. -/
theorem V7_v55 (c : Dev nD) : V7 m ρ c main_v55 = shapeCast _ (extractStridedSlice S1x256x256 ![1, 0, 0] (m ((c : Thread nD τ).loc main_arg8)) slices_S2x256x256_S1x256x256_1_0_0) shapeCasts_S1x256x256_S256x256 := by
  show W7 m ρ c (Proc.devRef .tc main_v55) = _
  dsimp only [W7, hostOps3]
  after_results
  rw [W6_arg8 m ρ c]
  rfl
/-- Layer 1's node kernel finds in `main_v58` a slice of argument 9, reshaped. -/
theorem V7_v58 (c : Dev nD) : V7 m ρ c main_v58 = shapeCast _ (shapeCast _ (extractStridedSlice S1x256 ![1, 0] (m ((c : Thread nD τ).loc main_arg9)) slices_S2x256_S1x256_1_0) shapeCasts_S1x256_S256) shapeCasts_S256_S1x256 := by
  show W7 m ρ c (Proc.devRef .tc main_v58) = _
  dsimp only [W7, hostOps3]
  after_results
  rw [W6_arg9 m ρ c]
  rfl

/-! ## The two node kernels' outputs at the last region's exit, and the result -/

/-- Layer 1's node output is what region 3 left. -/
theorem W8_v59 (c : Dev nD) : W8 m ρ c (Proc.devRef .tc main_v59) = (dat3 (V7 m ρ) c).arrAt 5 cfg3.N := W8_arr m ρ c 5

/-- Layer 0's node output is still what region 1 left: nothing after region 1 writes it before the concatenation. -/
theorem W8_v29 (c : Dev nD) : W8 m ρ c (Proc.devRef .tc main_v29) = (dat1 (V3 m ρ) c).arrAt 5 cfg1.N :=
  (W8_of_ne m ρ c main_v29 (by decide)).trans
    ((by host_keeps : W7 m ρ c (Proc.devRef .tc main_v29) = W6 m ρ c (Proc.devRef .tc main_v29)).trans
      ((W6_of_ne m ρ c main_v29 (by decide)).trans
        ((by host_keeps : W5 m ρ c (Proc.devRef .tc main_v29) = W4 m ρ c (Proc.devRef .tc main_v29)).trans
          (W4_arr m ρ c 5))))

/-- The result: the two layers' node outputs, each given a leading unit axis, joined along it. -/
theorem W9_v62 (c : Dev nD) : W9 m ρ c (Proc.devRef .tc main_v62)
    = concatenate S2x50000x256 0 [⟨S1x50000x256, broadcastInDim S1x50000x256 ![1, 2] bcast_S50000x256_S1x50000x256_1_2 ((dat1 (V3 m ρ) c).arrAt 5 cfg1.N)⟩,
        ⟨S1x50000x256, broadcastInDim S1x50000x256 ![1, 2] bcast_S50000x256_S1x50000x256_1_2 ((dat3 (V7 m ρ) c).arrAt 5 cfg3.N)⟩]
        concatenates_S1x50000x256_S1x50000x256_S2x50000x256_d0 := by
  rw [← W8_v29 m ρ c, ← W8_v59 m ρ c]
  dsimp only [W9, hostOps4]
  after_results

end Cert.KernelIdeal.KFold

end
-- ==== Proof.MlpSpec.lean ====
/-
  The two small networks both programs compute, index by index over the extended reals.

  An edge's message: its weight `ew e` times the first layer's row, plus the bias, clamped below at zero, then a
  256-term product with the second layer's column `j` and the second bias:
    `edge e j = (∑ k, max (ew e · w1 k + b1 k) 0 · w2 k j) + b2 j`.
  A node's update: the same two layers over a 256-entry feature row,
    `node n j = (∑ k, max ((∑ q, x n q · w1 q k) + b1 k) 0 · w2 k j) + b2 j`.
  Both are stated for any number of rows, so that one definition serves a block of rows and the whole array: row `p` of
  the result reads only row `p` of the first operand.
-/
import Idealize.ShloMosaic.PureOps.Ideal
import Idealize.ShloMosaic.Lib.ValueIdx

noncomputable section

namespace Cert.MlpSpec

open Idealize.ShloMosaic Idealize.ShloMosaic.ValueIdx

/-- An `a × b` array of extended reals. -/
abbrev M (a b : Nat) : Type := (⟨2, ![a, b]⟩ : Shape).Idx → EReal

/-- The zero both programs clamp against (the all-zero f32 word). -/
abbrev zero : EReal := Ideal.ofBits .f32 0x00000000#32

/-- The edge network on `E` rows. -/
def edge {E : Nat} (ew : M E 1) (w1 b1 : M 1 256) (w2 : M 256 256) (b2 : M 1 256) : M E 256 := fun i =>
  (∑ k : Fin 256, max (ew (ix2 (i 0) 0) * w1 (ix2 0 k) + b1 (ix2 0 k)) zero * w2 (ix2 k (i 1))) + b2 (ix2 0 (i 1))

/-- The node network on `N` rows. -/
def node {N : Nat} (x : M N 256) (w1 : M 256 256) (b1 : M 1 256) (w2 : M 256 256) (b2 : M 1 256) : M N 256 := fun i =>
  (∑ k : Fin 256, max ((∑ q : Fin 256, x (ix2 (i 0) q) * w1 (ix2 q k)) + b1 (ix2 0 k)) zero * w2 (ix2 k (i 1))) + b2 (ix2 0 (i 1))

theorem edge_apply {E : Nat} (ew : M E 1) (w1 b1 : M 1 256) (w2 : M 256 256) (b2 : M 1 256) (p : Fin E) (j : Fin 256) :
    edge ew w1 b1 w2 b2 (ix2 p j)
      = (∑ k : Fin 256, max (ew (ix2 p 0) * w1 (ix2 0 k) + b1 (ix2 0 k)) zero * w2 (ix2 k j)) + b2 (ix2 0 j) := rfl

theorem node_apply {N : Nat} (x : M N 256) (w1 : M 256 256) (b1 : M 1 256) (w2 : M 256 256) (b2 : M 1 256) (p : Fin N) (j : Fin 256) :
    node x w1 b1 w2 b2 (ix2 p j)
      = (∑ k : Fin 256, max ((∑ q : Fin 256, x (ix2 p q) * w1 (ix2 q k)) + b1 (ix2 0 k)) zero * w2 (ix2 k j)) + b2 (ix2 0 j) := rfl

/-- Row `p` of the edge network reads only row `p` of the weights: two weight columns that agree there give the same row. -/
theorem edge_row {E E' : Nat} (ew : M E 1) (ew' : M E' 1) (w1 b1 : M 1 256) (w2 : M 256 256) (b2 : M 1 256)
    (p : Fin E) (p' : Fin E') (j : Fin 256) (h : ew (ix2 p 0) = ew' (ix2 p' 0)) :
    edge ew w1 b1 w2 b2 (ix2 p j) = edge ew' w1 b1 w2 b2 (ix2 p' j) := by
  rw [edge_apply, edge_apply, h]

/-- Row `p` of the node network reads only row `p` of the features. -/
theorem node_row {N N' : Nat} (x : M N 256) (x' : M N' 256) (w1 : M 256 256) (b1 : M 1 256) (w2 : M 256 256) (b2 : M 1 256)
    (p : Fin N) (p' : Fin N') (j : Fin 256) (h : ∀ q : Fin 256, x (ix2 p q) = x' (ix2 p' q)) :
    node x w1 b1 w2 b2 (ix2 p j) = node x' w1 b1 w2 b2 (ix2 p' j) := by
  rw [node_apply, node_apply]
  simp only [h]

end Cert.MlpSpec

end
-- ==== Proof.LibColumn.lean ====
/-
  Column vectors read at an index given by coordinates.

  A sum or maximum taken with `keepdims` leaves a column `[a, 1]`, which is then spread over the lanes. These three
  readings complete the library's list of small layout forms (leading unit axes, one row spread over many rows)
  with the column ones: a vector `[a]` viewed as a column, a row `[1, a]` viewed as a column, and a column `[a, 1]`
  spread to `[a, b]`. Each is the general lemma for its operation with the coordinate arithmetic done: a shape cast
  keeps the row-major position, and a broadcast reads coordinate 0 on a unit axis.
-/
import Idealize.ShloMosaic.Lib.ValueLayout

namespace Cert.LibColumn

open Idealize.ShloMosaic Idealize.ShloMosaic.ValueIdx

variable {α : Type}

/-- An `[a]` vector cast to an `[a, 1]` column reads, at `(i, u)`, the vector at `i`, whatever the unit coordinate `u`:
    both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, a]` row cast to an `[a, 1]` column reads, at `(i, u)`, the row at `(0, i)`. -/
theorem shapeCast_1a_a1_apply {a : ℕ} (x : (⟨2, ![1, a]⟩ : Shape).Idx → α) (h : (⟨2, ![1, a]⟩ : Shape).ShapeCasts ⟨2, ![a, 1]⟩)
    (i : Fin a) (u : Fin 1) : shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

/-- An `[a, 1]` column broadcast to `[a, b]` reads, at `(p, c)`, the column at `p`: every lane of a row holds the row's one
    entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KPayEdge.lean ====
/-
  The edge kernel's stored value, index by index: what one grid point writes to its output block is the edge network
  (`MlpSpec.edge`) of the point's block of edge weights and the four parameter arrays.
-/
import proofs.«146717_j90881507983367_1_alg».proof.Proof.Gen.KernelIdeal.Skeleton
import proofs.«146717_j90881507983367_1_alg».proof.Proof.MlpSpec
import proofs.«146717_j90881507983367_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KPay

open Cert.KernelIdeal Cert.KernelIdeal.Gen Idealize.ShloMosaic Idealize.ShloMosaic.ValueIdx

/-! ## The kernel's matrix product at an index -/

/-- The left operand's row coordinate is the result's row coordinate. -/
theorem lhs_edge_0 (i : S3200x256.Idx) (q : dot_S3200x256_S256x256_S3200x256_1_0_0_1_n_n.contr.Idx) :
    (dot_S3200x256_S256x256_S3200x256_1_0_0_1_n_n.lhsIdx i q 0).val = (i 0).val := by
  unfold DotDims.lhsIdx
  rw [dif_neg (show ¬(0 : Fin S3200x256.rank) ∈ dot_S3200x256_S256x256_S3200x256_1_0_0_1_n_n.lhsBatch by decide), dif_pos (show (0 : Fin S3200x256.rank) ∈ dot_S3200x256_S256x256_S3200x256_1_0_0_1_n_n.lhsNonContracting by decide)]
  rfl
/-- The left operand's column coordinate is the summation index. -/
theorem lhs_edge_1 (i : S3200x256.Idx) (q : dot_S3200x256_S256x256_S3200x256_1_0_0_1_n_n.contr.Idx) :
    (dot_S3200x256_S256x256_S3200x256_1_0_0_1_n_n.lhsIdx i q 1).val = (q ⟨0, by decide⟩).val :=
  dot_S3200x256_S256x256_S3200x256_1_0_0_1_n_n.lhsIdx_val_of_single rfl i q
/-- The right operand's row coordinate is the summation index. -/
theorem rhs_edge_0 (i : S3200x256.Idx) (q : dot_S3200x256_S256x256_S3200x256_1_0_0_1_n_n.contr.Idx) :
    (dot_S3200x256_S256x256_S3200x256_1_0_0_1_n_n.rhsIdx i q 0).val = (q ⟨0, by decide⟩).val :=
  dot_S3200x256_S256x256_S3200x256_1_0_0_1_n_n.rhsIdx_val_of_single rfl i q
/-- The right operand's column coordinate is the result's column coordinate. -/
theorem rhs_edge_1 (i : S3200x256.Idx) (q : dot_S3200x256_S256x256_S3200x256_1_0_0_1_n_n.contr.Idx) :
    (dot_S3200x256_S256x256_S3200x256_1_0_0_1_n_n.rhsIdx i q 1).val = (i 1).val := by
  unfold DotDims.rhsIdx
  rw [dif_neg (show ¬(1 : Fin S256x256.rank) ∈ dot_S3200x256_S256x256_S3200x256_1_0_0_1_n_n.rhsBatch by decide), dif_pos (show (1 : Fin S256x256.rank) ∈ dot_S3200x256_S256x256_S3200x256_1_0_0_1_n_n.rhsNonContracting by decide)]
  rfl

/-- The matrix product accumulated into zero, at row `p` and column `j`: the 256-term sum of the left operand's row `p`
    against the right operand's column `j`. -/
theorem matmul_edge_apply (lhs : FVec Ideal S3200x256 .bf16) (rhs : FVec Ideal S256x256 .bf16) (p : Fin 3200) (j : Fin 256) :
    matmul (F := Ideal) dot_S3200x256_S256x256_S3200x256_1_0_0_1_n_n none lhs rhs (constant (F := Ideal) S3200x256 .f32 0x00000000#32) (ix2 p j)
      = ∑ k : Fin 256, lhs (ix2 p k) * rhs (ix2 k j) := by
  refine (Ideal.matmul_constant_zero_apply dot_S3200x256_S256x256_S3200x256_1_0_0_1_n_n none lhs rhs (ix2 p j)).trans ?_
  rw [← Equiv.sum_comp (ValueIdx.contrEquiv1 dot_S3200x256_S256x256_S3200x256_1_0_0_1_n_n 256 rfl rfl).symm]
  refine Finset.sum_congr rfl fun k _ => ?_
  have hk := ValueIdx.contrEquiv1_symm_val dot_S3200x256_S256x256_S3200x256_1_0_0_1_n_n 256 rfl rfl k
  have el : dot_S3200x256_S256x256_S3200x256_1_0_0_1_n_n.lhsIdx (ix2 p j) ((ValueIdx.contrEquiv1 dot_S3200x256_S256x256_S3200x256_1_0_0_1_n_n 256 rfl rfl).symm k) = ix2 p k := funext fun a => Fin.ext (by
    match a with
    | ⟨0, _⟩ => exact lhs_edge_0 _ _
    | ⟨1, _⟩ => exact (lhs_edge_1 _ _).trans hk)
  have er : dot_S3200x256_S256x256_S3200x256_1_0_0_1_n_n.rhsIdx (ix2 p j) ((ValueIdx.contrEquiv1 dot_S3200x256_S256x256_S3200x256_1_0_0_1_n_n 256 rfl rfl).symm k) = ix2 k j := funext fun a => Fin.ext (by
    match a with
    | ⟨0, _⟩ => exact (rhs_edge_0 _ _).trans hk
    | ⟨1, _⟩ => exact rhs_edge_1 _ _)
  rw [el, er]

/-! ## The stored value -/

/-- Layer 0's edge kernel: the stored block is the edge network of the loaded blocks. -/
theorem k0_pay1_eq (x0 : Vec Ideal S3200x1 .f32) (x1 x2 : Vec Ideal S1x256 .f32) (x3 : Vec Ideal S256x256 .f32) (x4 : Vec Ideal S1x256 .f32) :
    k0_pay1 (F := Ideal) x0 x1 x2 x3 x4 = Cert.MlpSpec.edge x0 x1 x2 x3 x4 := by
  funext j
  obtain ⟨p, q, rfl⟩ : ∃ (p : Fin 3200) (q : Fin 256), j = ix2 p q := ⟨j 0, j 1, eq_ix2 j⟩
  rw [Cert.MlpSpec.edge_apply]
  unfold k0_pay1
  -- every shape cast is of a shape to itself
  simp only [shapeCast_self]
  -- the outer sum: the product's entry plus the second bias, whose one row is spread over the rows
  refine (addf_apply _ _ _).trans ?_
  rw [matmul_edge_apply, broadcastTo_1b_ab_apply]
  refine congrArg (· + x4 (ix2 0 q)) (Finset.sum_congr rfl fun k _ => ?_)
  -- term `k`: a format change is the identity; the hidden entry is the clamped first layer, whose weight column is
  -- spread over the lanes and whose parameter rows are spread over the rows
  rw [truncf_apply, truncf_apply, maximumf_apply, addf_apply, mulf_apply, broadcast_apply,
    Cert.LibColumn.broadcastTo_a1_ab_apply, broadcastTo_1b_ab_apply, broadcastTo_1b_ab_apply]
  rfl

/-- Layer 1's edge kernel: the same body. -/
theorem k2_pay1_eq (x0 : Vec Ideal S3200x1 .f32) (x1 x2 : Vec Ideal S1x256 .f32) (x3 : Vec Ideal S256x256 .f32) (x4 : Vec Ideal S1x256 .f32) :
    k2_pay1 (F := Ideal) x0 x1 x2 x3 x4 = Cert.MlpSpec.edge x0 x1 x2 x3 x4 := by
  funext j
  obtain ⟨p, q, rfl⟩ : ∃ (p : Fin 3200) (q : Fin 256), j = ix2 p q := ⟨j 0, j 1, eq_ix2 j⟩
  rw [Cert.MlpSpec.edge_apply]
  unfold k2_pay1
  -- every shape cast is of a shape to itself
  simp only [shapeCast_self]
  -- the outer sum: the product's entry plus the second bias, whose one row is spread over the rows
  refine (addf_apply _ _ _).trans ?_
  rw [matmul_edge_apply, broadcastTo_1b_ab_apply]
  refine congrArg (· + x4 (ix2 0 q)) (Finset.sum_congr rfl fun k _ => ?_)
  -- term `k`: a format change is the identity; the hidden entry is the clamped first layer, whose weight column is
  -- spread over the lanes and whose parameter rows are spread over the rows
  rw [truncf_apply, truncf_apply, maximumf_apply, addf_apply, mulf_apply, broadcast_apply,
    Cert.LibColumn.broadcastTo_a1_ab_apply, broadcastTo_1b_ab_apply, broadcastTo_1b_ab_apply]
  rfl

end Cert.KernelIdeal.KPay

end
-- ==== Proof.KRegion0.lean ====
/-
  Region 0 (layer 0's edge kernel) as one array: the grid's points write disjoint row blocks that tile the output, and
  each block is the edge network of that block of rows, so after the region the output array is the edge network of the
  whole input arrays as the region found them.
-/
import proofs.«146717_j90881507983367_1_alg».proof.Proof.KernelIdealFrame
import proofs.«146717_j90881507983367_1_alg».proof.Proof.KPayEdge
import proofs.«146717_j90881507983367_1_alg».proof.Proof.MlpSpec
import Idealize.ShloMosaic.Lib.Pipeline.Value
import Idealize.ShloMosaic.Lib.ValueIdx

set_option maxRecDepth 16384

noncomputable section

namespace Cert.KernelIdeal.KRegion

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offsets of a whole-buffer access, as a constant function. -/
theorem zero_off0 : (![0, 0] : Fin 2 → Nat) = fun _ => 0 := funext fun a => by fin_cases a <;> rfl

/-- The block indices over the grid: at point `t` the weight column and the output are at row block `t`; each of the four
    parameter arrays is one block, at block (0, 0). -/
theorem block_index0 : ∀ t : Fin cfg0.N,
    win0_0.index t (0 : Fin 2) = t.val ∧ win0_0.index t (1 : Fin 2) = 0
    ∧ win0_5.index t (0 : Fin 2) = t.val ∧ win0_5.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Row `r` of the network of a block of 3200 edge weights is row `n · 3200 + r` of the network of the whole column, when
    the block holds rows `n · 3200 …` of the column and the parameters are the same. -/
theorem edge_block_row (A : Cert.MlpSpec.M 800000 1) (w1 b1 : Cert.MlpSpec.M 1 256) (w2 : Cert.MlpSpec.M 256 256) (b2 : Cert.MlpSpec.M 1 256)
    (x0 : Cert.MlpSpec.M 3200 1) (x1 x2 : Cert.MlpSpec.M 1 256) (x3 : Cert.MlpSpec.M 256 256) (x4 : Cert.MlpSpec.M 1 256) (n : Nat)
    (h0 : ∀ (r : Fin 3200) (p : Fin 800000), p.val = n * 3200 + r.val → x0 (ix2 r 0) = A (ix2 p 0))
    (h1 : x1 = w1) (h2 : x2 = b1) (h3 : x3 = w2) (h4 : x4 = b2)
    (y : S3200x256.Idx) (i : S800000x256.Idx) (hi0 : (i 0).val = n * 3200 + (y 0).val) (hi1 : (i 1).val = (y 1).val) :
    Cert.MlpSpec.edge x0 x1 x2 x3 x4 y = Cert.MlpSpec.edge A w1 b1 w2 b2 i := by
  obtain ⟨r, j, rfl⟩ : ∃ (r : Fin 3200) (j : Fin 256), y = ix2 r j := ⟨y 0, y 1, eq_ix2 y⟩
  obtain ⟨p, j', rfl⟩ : ∃ (p : Fin 800000) (j' : Fin 256), i = ix2 p j' := ⟨i 0, i 1, eq_ix2 i⟩
  obtain rfl : j' = j := Fin.ext hi1
  subst h1 h2 h3 h4
  exact Cert.MlpSpec.edge_row x0 A _ _ _ _ r p j' (h0 r p hi0)

/-- The weight column's block at point `t` holds rows `t · 3200 …` of the column. -/
theorem weights_block0 (c : Dev nD) (t : Fin cfg0.N) (r : Fin 3200) (p : Fin 800000) (hp : p.val = t.val * 3200 + r.val) :
    (iblk0 V c 0 t : Vec Ideal S3200x1 .f32) (ix2 r 0) = (V c main_v2 : S800000x1.Idx → EReal) (ix2 p 0) := by
  obtain ⟨e0, e1, -⟩ := block_index0 t
  unfold iblk0
  rw [View.read_apply]
  show V c main_v2 _ = V c main_v2 _
  congr 1
  funext a
  apply Fin.ext
  match a with
  | ⟨0, _⟩ => show win0_0.index t (0 : Fin 2) * 3200 + 1 * r.val = p.val; rw [e0, hp]; omega
  | ⟨1, _⟩ => show win0_0.index t (1 : Fin 2) * 1 + 1 * 0 = 0; rw [e1]

/-- The first layer's weight row is one block: at every point its block is the whole array. -/
theorem w1_block0 (c : Dev nD) (t : Fin cfg0.N) :
    (iblk0 V c 1 t : Vec Ideal S1x256 .f32) = (V c main_v4 : S1x256.Idx → EReal) := by
  obtain ⟨-, -, -, -, e0, e1, -⟩ := block_index0 t
  unfold iblk0
  funext y
  rw [View.read_apply]
  show V c main_v4 _ = V c main_v4 _
  congr 1
  funext a
  apply Fin.ext
  match a with
  | ⟨0, _⟩ => show win0_1.index t (0 : Fin 2) * 1 + 1 * (y 0).val = (y 0).val; rw [e0]; omega
  | ⟨1, _⟩ => show win0_1.index t (1 : Fin 2) * 256 + 1 * (y 1).val = (y 1).val; rw [e1]; omega

/-- The first layer's bias row is one block. -/
theorem b1_block0 (c : Dev nD) (t : Fin cfg0.N) :
    (iblk0 V c 2 t : Vec Ideal S1x256 .f32) = (V c main_v7 : S1x256.Idx → EReal) := by
  obtain ⟨-, -, -, -, -, -, e0, e1, -⟩ := block_index0 t
  unfold iblk0
  funext y
  rw [View.read_apply]
  show V c main_v7 _ = V c main_v7 _
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 256 + 1 * (y 1).val = (y 1).val; rw [e1]; omega

/-- The second layer's weight matrix is one block. -/
theorem w2_block0 (c : Dev nD) (t : Fin cfg0.N) :
    (iblk0 V c 3 t : Vec Ideal S256x256 .f32) = (V c main_v9 : S256x256.Idx → EReal) := by
  obtain ⟨-, -, -, -, -, -, -, -, e0, e1, -⟩ := block_index0 t
  unfold iblk0
  funext y
  rw [View.read_apply]
  show V c main_v9 _ = V c main_v9 _
  congr 1
  funext a
  apply Fin.ext
  match a with
  | ⟨0, _⟩ => show win0_3.index t (0 : Fin 2) * 256 + 1 * (y 0).val = (y 0).val; rw [e0]; omega
  | ⟨1, _⟩ => show win0_3.index t (1 : Fin 2) * 256 + 1 * (y 1).val = (y 1).val; rw [e1]; omega

/-- The second layer's bias row is one block. -/
theorem b2_block0 (c : Dev nD) (t : Fin cfg0.N) :
    (iblk0 V c 4 t : Vec Ideal S1x256 .f32) = (V c main_v12 : S1x256.Idx → EReal) := by
  obtain ⟨-, -, -, -, -, -, -, -, -, -, e0, e1⟩ := block_index0 t
  unfold iblk0
  funext y
  rw [View.read_apply]
  show V c main_v12 _ = V c main_v12 _
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 256 + 1 * (y 1).val = (y 1).val; rw [e1]; omega

/-- What point `t` writes back is block `t` of the edge network of the whole input arrays: rows `t · 3200 …`. -/
theorem written_block0 (c : Dev nD) (t : Fin cfg0.N) :
    (dat0 (F := Ideal) V c).flushed 5 t
      = ((cfg0.win 5).blk t).view.read (Elt Ideal)
          (Cert.MlpSpec.edge (V c main_v2) (V c main_v4) (V c main_v7) (V c main_v9) (V c main_v12)) := by
  show (cfg0.win 5).cut (grid0.coords t) ((dat0 (F := Ideal) V c).after 5 t) = _
  rw [after0_5]
  unfold out0_5
  rw [View.canon_unit_zero zero_off0]
  simp only [View.ld_unit_zero (S := S3200x1) zero_off0, View.ld_unit_zero (S := S1x256) zero_off0,
    View.ld_unit_zero (S := S256x256) zero_off0]
  rw [KPay.k0_pay1_eq]
  obtain ⟨-, -, e0, e1, -⟩ := block_index0 t
  funext y
  rw [View.read_apply]
  refine edge_block_row (V c main_v2) (V c main_v4) (V c main_v7) (V c main_v9) (V c main_v12)
    (iblk0 V c 0 t) (iblk0 V c 1 t) (iblk0 V c 2 t) (iblk0 V c 3 t) (iblk0 V c 4 t) t.val
    (weights_block0 V c t) (w1_block0 V c t) (b1_block0 V c t) (w2_block0 V c t) (b2_block0 V c t) y _ ?_ ?_
  · show win0_5.index t (0 : Fin 2) * 3200 + 1 * (y 0).val = t.val * 3200 + (y 0).val
    rw [e0]; omega
  · show win0_5.index t (1 : Fin 2) * 256 + 1 * (y 1).val = (y 1).val
    rw [e1]; omega

/-- An index of the output array is in point `t`'s block iff each coordinate is in the block's range on its axis. -/
theorem mem_block0 (t : Fin cfg0.N) (i : S800000x256.Idx) :
    i ∈ ((cfg0.win 5).blk t).view.set
      ↔ ∀ a : Fin 2, win0_5.index t a * S3200x256.size a ≤ (i a).val
          ∧ (i a).val < win0_5.index t a * S3200x256.size a + S3200x256.size a := by
  show i ∈ ((View.whole main_v13).slice (win0_5.rect t)).set ↔ _
  rw [View.set_slice_whole, Rect.mem_set_unit]
  exact Iff.rfl

/-- After region 0 its output array is the edge network of its five input arrays: row `p` is written by point
    `p / 3200`, and every point writes its rows of that network. -/
theorem arr0 (c : Dev nD) :
    (dat0 (F := Ideal) V c).arrAt 5 cfg0.N
      = Cert.MlpSpec.edge (V c main_v2) (V c main_v4) (V c main_v7) (V c main_v9) (V c main_v12) := by
  refine (dat0 (F := Ideal) V c).arrAt_eq_of_cover 5 _ (fun t _ => written_block0 V c t) fun i => ?_
  have hi0 : (i 0).val < 800000 := (i 0).isLt
  have hi1 : (i 1).val < 256 := (i 1).isLt
  have ht : (i 0).val / 3200 < 250 := by omega
  obtain ⟨-, -, e0, e1, -⟩ := block_index0 ⟨(i 0).val / 3200, ht⟩
  refine ⟨⟨(i 0).val / 3200, ht⟩, flush0_5 _, ?_⟩
  rw [mem_block0]
  intro a
  match a with
  | ⟨0, _⟩ =>
    show win0_5.index ⟨(i 0).val / 3200, ht⟩ (0 : Fin 2) * 3200 ≤ (i 0).val
      ∧ (i 0).val < win0_5.index ⟨(i 0).val / 3200, ht⟩ (0 : Fin 2) * 3200 + 3200
    rw [e0]
    show (i 0).val / 3200 * 3200 ≤ (i 0).val ∧ (i 0).val < (i 0).val / 3200 * 3200 + 3200
    omega
  | ⟨1, _⟩ =>
    show win0_5.index ⟨(i 0).val / 3200, ht⟩ (1 : Fin 2) * 256 ≤ (i 1).val
      ∧ (i 1).val < win0_5.index ⟨(i 0).val / 3200, ht⟩ (1 : Fin 2) * 256 + 256
    rw [e1]
    omega

end Cert.KernelIdeal.KRegion

end
-- ==== Proof.KPayNode.lean ====
/-
  The node kernel's stored value, index by index: what one grid point writes to its output block is the node network
  (`MlpSpec.node`) of the point's block of node features and the four parameter arrays.
-/
import proofs.«146717_j90881507983367_1_alg».proof.Proof.Gen.KernelIdeal.Skeleton
import proofs.«146717_j90881507983367_1_alg».proof.Proof.MlpSpec
import proofs.«146717_j90881507983367_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KPay

open Cert.KernelIdeal Cert.KernelIdeal.Gen Idealize.ShloMosaic Idealize.ShloMosaic.ValueIdx

/-! ## The kernel's matrix product at an index -/

/-- The left operand's row coordinate is the result's row coordinate. -/
theorem lhs_node_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
/-- The left operand's column coordinate is the summation index. -/
theorem lhs_node_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
/-- The right operand's row coordinate is the summation index. -/
theorem rhs_node_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
/-- The right operand's column coordinate is the result's column coordinate. -/
theorem rhs_node_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The matrix product accumulated into zero, at row `p` and column `j`: the 256-term sum of the left operand's row `p`
    against the right operand's column `j`. -/
theorem matmul_node_apply (lhs : FVec Ideal S2000x256 .bf16) (rhs : FVec Ideal S256x256 .bf16) (p : Fin 2000) (j : Fin 256) :
    matmul (F := Ideal) dot_S2000x256_S256x256_S2000x256_1_0_0_1_n_n none lhs rhs (constant (F := Ideal) S2000x256 .f32 0x00000000#32) (ix2 p j)
      = ∑ k : Fin 256, lhs (ix2 p k) * rhs (ix2 k j) := by
  refine (Ideal.matmul_constant_zero_apply dot_S2000x256_S256x256_S2000x256_1_0_0_1_n_n none lhs rhs (ix2 p j)).trans ?_
  rw [← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx (ix2 p j) ((ValueIdx.contrEquiv1 dot_S2000x256_S256x256_S2000x256_1_0_0_1_n_n 256 rfl rfl).symm k) = ix2 p k := funext fun a => Fin.ext (by
    match a with
    | ⟨0, _⟩ => exact lhs_node_0 _ _
    | ⟨1, _⟩ => exact (lhs_node_1 _ _).trans hk)
  have er : dot_S2000x256_S256x256_S2000x256_1_0_0_1_n_n.rhsIdx (ix2 p j) ((ValueIdx.contrEquiv1 dot_S2000x256_S256x256_S2000x256_1_0_0_1_n_n 256 rfl rfl).symm k) = ix2 k j := funext fun a => Fin.ext (by
    match a with
    | ⟨0, _⟩ => exact (rhs_node_0 _ _).trans hk
    | ⟨1, _⟩ => exact rhs_node_1 _ _)
  rw [el, er]

/-! ## The stored value -/

/-- Layer 0's node kernel: the stored block is the node network of the loaded blocks. -/
theorem k1_pay1_eq (x0 : Vec Ideal S2000x256 .f32) (x1 : Vec Ideal S256x256 .f32) (x2 : Vec Ideal S1x256 .f32) (x3 : Vec Ideal S256x256 .f32) (x4 : Vec Ideal S1x256 .f32) :
    k1_pay1 (F := Ideal) x0 x1 x2 x3 x4 = Cert.MlpSpec.node x0 x1 x2 x3 x4 := by
  funext j
  obtain ⟨p, q, rfl⟩ : ∃ (p : Fin 2000) (q : Fin 256), j = ix2 p q := ⟨j 0, j 1, eq_ix2 j⟩
  rw [Cert.MlpSpec.node_apply]
  unfold k1_pay1
  -- every shape cast is of a shape to itself
  simp only [shapeCast_self]
  -- the outer sum: the second product's entry plus the second bias, whose one row is spread over the rows
  refine (addf_apply _ _ _).trans ?_
  rw [matmul_node_apply, broadcastTo_1b_ab_apply]
  refine congrArg (· + x4 (ix2 0 q)) (Finset.sum_congr rfl fun k _ => ?_)
  -- term `k`: a format change is the identity; the hidden entry is the clamped first product's entry plus the first
  -- bias, whose one row is spread over the rows
  rw [truncf_apply, truncf_apply, maximumf_apply, addf_apply, broadcast_apply, matmul_node_apply,
    broadcastTo_1b_ab_apply]
  rfl

/-- Layer 1's node kernel: the same body. -/
theorem k3_pay1_eq (x0 : Vec Ideal S2000x256 .f32) (x1 : Vec Ideal S256x256 .f32) (x2 : Vec Ideal S1x256 .f32) (x3 : Vec Ideal S256x256 .f32) (x4 : Vec Ideal S1x256 .f32) :
    k3_pay1 (F := Ideal) x0 x1 x2 x3 x4 = Cert.MlpSpec.node x0 x1 x2 x3 x4 := by
  funext j
  obtain ⟨p, q, rfl⟩ : ∃ (p : Fin 2000) (q : Fin 256), j = ix2 p q := ⟨j 0, j 1, eq_ix2 j⟩
  rw [Cert.MlpSpec.node_apply]
  unfold k3_pay1
  -- every shape cast is of a shape to itself
  simp only [shapeCast_self]
  -- the outer sum: the second product's entry plus the second bias, whose one row is spread over the rows
  refine (addf_apply _ _ _).trans ?_
  rw [matmul_node_apply, broadcastTo_1b_ab_apply]
  refine congrArg (· + x4 (ix2 0 q)) (Finset.sum_congr rfl fun k _ => ?_)
  -- term `k`: a format change is the identity; the hidden entry is the clamped first product's entry plus the first
  -- bias, whose one row is spread over the rows
  rw [truncf_apply, truncf_apply, maximumf_apply, addf_apply, broadcast_apply, matmul_node_apply,
    broadcastTo_1b_ab_apply]
  rfl

end Cert.KernelIdeal.KPay

end
-- ==== Proof.KRegion1.lean ====
/-
  Region 1 (layer 0's node kernel) as one array: the grid's points write disjoint row blocks that tile the output, and
  each block is the node network of that block of rows, so after the region the output array is the node network of the
  whole input arrays as the region found them.
-/
import proofs.«146717_j90881507983367_1_alg».proof.Proof.KernelIdealFrame
import proofs.«146717_j90881507983367_1_alg».proof.Proof.KPayNode
import proofs.«146717_j90881507983367_1_alg».proof.Proof.MlpSpec
import Idealize.ShloMosaic.Lib.Pipeline.Value
import Idealize.ShloMosaic.Lib.ValueIdx

set_option maxRecDepth 16384

noncomputable section

namespace Cert.KernelIdeal.KRegion

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The block offset of a load or store of a whole staging buffer. -/
theorem zero_off1 : (![0, 0] : Fin 2 → Nat) = fun _ => 0 := funext fun a => by fin_cases a <;> rfl

/-- The index maps over the grid: at point `t` the feature window and the output window are at row block `t`, column
    block 0; each of the four parameter windows is at block (0, 0), its one block. -/
theorem block_index1 : ∀ t : Fin cfg1.N, win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- What point `t` writes back is rows `2000 t` to `2000 t + 1999` of the node network of the whole arrays: row `r` of the
    block's network reads row `r` of the feature block, which is row `2000 t + r` of the feature array, and the four
    parameter blocks are the parameter arrays. -/
theorem written1 (c : Dev nD) (t : Fin cfg1.N) :
    (dat1 (F := Ideal) V c).flushed 5 t = ((cfg1.win 5).blk t).view.read (Elt Ideal)
      (Cert.MlpSpec.node (V c main_v18) (V c main_v20) (V c main_v23) (V c main_v25) (V c main_v28)) := by
  show (cfg1.win 5).cut (grid1.coords t) ((dat1 (F := Ideal) V c).after 5 t) = _
  rw [after1_5]
  unfold out1_5
  rw [View.canon_unit_zero zero_off1]
  simp only [View.ld_unit_zero (S := S2000x256) zero_off1, View.ld_unit_zero (S := S256x256) zero_off1, View.ld_unit_zero (S := S1x256) zero_off1]
  rw [KPay.k1_pay1_eq]
  obtain ⟨e00, e01, e50, e51, e10, e11, e20, e21, e30, e31, e40, e41⟩ := block_index1 t
  have ht : t.val < 25 := t.isLt
  -- window 1's one block is the whole of the first layer's weights
  have h1 : iblk1 V c 1 t = V c main_v20 := by
    funext z
    show V c main_v20 (((cfg1.win 1).blk t).view.emb z) = V c main_v20 z
    refine congrArg _ (funext fun a => Fin.ext ?_)
    match a with
    | ⟨0, _⟩ => show win1_1.index t (0 : Fin 2) * 256 + 1 * (z 0).val = (z 0).val; omega
    | ⟨1, _⟩ => show win1_1.index t (1 : Fin 2) * 256 + 1 * (z 1).val = (z 1).val; omega
  -- window 2's one block is the whole of the first bias
  have h2 : iblk1 V c 2 t = V c main_v23 := by
    funext z
    show V c main_v23 (((cfg1.win 2).blk t).view.emb z) = V c main_v23 z
    refine congrArg _ (funext fun a => Fin.ext ?_)
    match a with
    | ⟨0, _⟩ => show win1_2.index t (0 : Fin 2) * 1 + 1 * (z 0).val = (z 0).val; omega
    | ⟨1, _⟩ => show win1_2.index t (1 : Fin 2) * 256 + 1 * (z 1).val = (z 1).val; omega
  -- window 3's one block is the whole of the second layer's weights
  have h3 : iblk1 V c 3 t = V c main_v25 := by
    funext z
    show V c main_v25 (((cfg1.win 3).blk t).view.emb z) = V c main_v25 z
    refine congrArg _ (funext fun a => Fin.ext ?_)
    match a with
    | ⟨0, _⟩ => show win1_3.index t (0 : Fin 2) * 256 + 1 * (z 0).val = (z 0).val; omega
    | ⟨1, _⟩ => show win1_3.index t (1 : Fin 2) * 256 + 1 * (z 1).val = (z 1).val; omega
  -- window 4's one block is the whole of the second bias
  have h4 : iblk1 V c 4 t = V c main_v28 := by
    funext z
    show V c main_v28 (((cfg1.win 4).blk t).view.emb z) = V c main_v28 z
    refine congrArg _ (funext fun a => Fin.ext ?_)
    match a with
    | ⟨0, _⟩ => show win1_4.index t (0 : Fin 2) * 1 + 1 * (z 0).val = (z 0).val; omega
    | ⟨1, _⟩ => show win1_4.index t (1 : Fin 2) * 256 + 1 * (z 1).val = (z 1).val; omega
  funext y
  obtain ⟨r, q, rfl⟩ : ∃ (r : Fin 2000) (q : Fin 256), y = ix2 r q := ⟨y 0, y 1, eq_ix2 y⟩
  have hr : r.val < 2000 := r.isLt
  -- entry (r, q) of the output block is entry (2000 t + r, q) of the output array
  have hout : ((cfg1.win 5).blk t).view.emb (ix2 r q) = ix2 (⟨t.val * 2000 + r.val, by omega⟩ : Fin 50000) q := by
    funext a; apply Fin.ext
    match a with
    | ⟨0, _⟩ => show win1_5.index t (0 : Fin 2) * 2000 + 1 * r.val = t.val * 2000 + r.val; omega
    | ⟨1, _⟩ => show win1_5.index t (1 : Fin 2) * 256 + 1 * q.val = q.val; omega
  show Cert.MlpSpec.node (iblk1 V c 0 t) (iblk1 V c 1 t) (iblk1 V c 2 t) (iblk1 V c 3 t) (iblk1 V c 4 t) (ix2 r q)
    = Cert.MlpSpec.node (V c main_v18) (V c main_v20) (V c main_v23) (V c main_v25) (V c main_v28) (((cfg1.win 5).blk t).view.emb (ix2 r q))
  rw [hout, h1, h2, h3, h4]
  -- a row of the network reads one row of the features: entry (r, k) of the feature block is entry (2000 t + r, k) of
  -- the feature array
  refine Cert.MlpSpec.node_row _ _ _ _ _ _ r _ q fun k => ?_
  show V c main_v18 (((cfg1.win 0).blk t).view.emb (ix2 r k)) = V c main_v18 (ix2 (⟨t.val * 2000 + r.val, by omega⟩ : Fin 50000) k)
  refine congrArg _ (funext fun a => Fin.ext ?_)
  match a with
  | ⟨0, _⟩ => show win1_0.index t (0 : Fin 2) * 2000 + 1 * r.val = t.val * 2000 + r.val; omega
  | ⟨1, _⟩ => show win1_0.index t (1 : Fin 2) * 256 + 1 * k.val = k.val; omega

/-- An index of the output array is in point `t`'s block iff each coordinate is in the block's range on its axis. -/
theorem mem_block1 (t : Fin cfg1.N) (i : S50000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v29).slice (win1_5.rect t)).set ↔ _
  rw [View.set_slice_whole, Rect.mem_set_unit]
  exact Iff.rfl

/-- After region 1 its output array is the node network of its five input arrays. -/
theorem arr1 (c : Dev nD) :
    (dat1 (F := Ideal) V c).arrAt 5 cfg1.N
      = Cert.MlpSpec.node (V c main_v18) (V c main_v20) (V c main_v23) (V c main_v25) (V c main_v28) := by
  -- every point writes back its block of the network, and the 25 blocks of 2000 rows tile the 50000 rows: row `i` is
  -- in the block of point `i / 2000`
  refine (dat1 (F := Ideal) V c).arrAt_eq_of_cover 5 _ (fun t _ => written1 V c t) fun i => ?_
  have hi0 : (i 0).val < 50000 := (i 0).isLt
  have hi1 : (i 1).val < 256 := (i 1).isLt
  have hlt : (i 0).val / 2000 < 25 := by omega
  refine ⟨⟨(i 0).val / 2000, hlt⟩, flush1_5 _, ?_⟩
  rw [mem_block1]
  obtain ⟨-, -, e50, e51, -⟩ := block_index1 ⟨(i 0).val / 2000, hlt⟩
  intro a
  match a with
  | ⟨0, _⟩ =>
    show win1_5.index ⟨(i 0).val / 2000, hlt⟩ (0 : Fin 2) * 2000 ≤ (i 0).val ∧ (i 0).val < win1_5.index ⟨(i 0).val / 2000, hlt⟩ (0 : Fin 2) * 2000 + 2000
    rw [e50]
    show (i 0).val / 2000 * 2000 ≤ (i 0).val ∧ (i 0).val < (i 0).val / 2000 * 2000 + 2000
    omega
  | ⟨1, _⟩ =>
    show win1_5.index ⟨(i 0).val / 2000, hlt⟩ (1 : Fin 2) * 256 ≤ (i 1).val ∧ (i 1).val < win1_5.index ⟨(i 0).val / 2000, hlt⟩ (1 : Fin 2) * 256 + 256
    rw [e51]
    omega

end Cert.KernelIdeal.KRegion

end
-- ==== Proof.KRegion2.lean ====
/-
  Region 2 (layer 1's edge kernel) as one array: the grid's points write disjoint row blocks that tile the output, and
  each block is the edge network of that block of rows, so after the region the output array is the edge network of the
  whole input arrays as the region found them.
-/
import proofs.«146717_j90881507983367_1_alg».proof.Proof.KernelIdealFrame
import proofs.«146717_j90881507983367_1_alg».proof.Proof.KPayEdge
import proofs.«146717_j90881507983367_1_alg».proof.Proof.MlpSpec
import Idealize.ShloMosaic.Lib.Pipeline.Value
import Idealize.ShloMosaic.Lib.ValueIdx

set_option maxRecDepth 16384

noncomputable section

namespace Cert.KernelIdeal.KRegion

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offsets of a whole-buffer access, as a constant function. -/
theorem zero_off2 : (![0, 0] : Fin 2 → Nat) = fun _ => 0 := funext fun a => by fin_cases a <;> rfl

/-- The block indices over the grid: at point `t` the weight column and the output are at row block `t`; each of the four
    parameter arrays is one block, at block (0, 0). -/
theorem block_index2 : ∀ t : Fin cfg2.N,
    win2_0.index t (0 : Fin 2) = t.val ∧ win2_0.index t (1 : Fin 2) = 0
    ∧ win2_5.index t (0 : Fin 2) = t.val ∧ win2_5.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- Row `r` of the network of a block of 3200 edge weights is row `n · 3200 + r` of the network of the whole column, when
    the block holds rows `n · 3200 …` of the column and the parameters are the same. -/
theorem edge_block_row2 (A : Cert.MlpSpec.M 800000 1) (w1 b1 : Cert.MlpSpec.M 1 256) (w2 : Cert.MlpSpec.M 256 256) (b2 : Cert.MlpSpec.M 1 256)
    (x0 : Cert.MlpSpec.M 3200 1) (x1 x2 : Cert.MlpSpec.M 1 256) (x3 : Cert.MlpSpec.M 256 256) (x4 : Cert.MlpSpec.M 1 256) (n : Nat)
    (h0 : ∀ (r : Fin 3200) (p : Fin 800000), p.val = n * 3200 + r.val → x0 (ix2 r 0) = A (ix2 p 0))
    (h1 : x1 = w1) (h2 : x2 = b1) (h3 : x3 = w2) (h4 : x4 = b2)
    (y : S3200x256.Idx) (i : S800000x256.Idx) (hi0 : (i 0).val = n * 3200 + (y 0).val) (hi1 : (i 1).val = (y 1).val) :
    Cert.MlpSpec.edge x0 x1 x2 x3 x4 y = Cert.MlpSpec.edge A w1 b1 w2 b2 i := by
  obtain ⟨r, j, rfl⟩ : ∃ (r : Fin 3200) (j : Fin 256), y = ix2 r j := ⟨y 0, y 1, eq_ix2 y⟩
  obtain ⟨p, j', rfl⟩ : ∃ (p : Fin 800000) (j' : Fin 256), i = ix2 p j' := ⟨i 0, i 1, eq_ix2 i⟩
  obtain rfl : j' = j := Fin.ext hi1
  subst h1 h2 h3 h4
  exact Cert.MlpSpec.edge_row x0 A _ _ _ _ r p j' (h0 r p hi0)

/-- The weight column's block at point `t` holds rows `t · 3200 …` of the column. -/
theorem weights_block2 (c : Dev nD) (t : Fin cfg2.N) (r : Fin 3200) (p : Fin 800000) (hp : p.val = t.val * 3200 + r.val) :
    (iblk2 V c 0 t : Vec Ideal S3200x1 .f32) (ix2 r 0) = (V c main_v32 : S800000x1.Idx → EReal) (ix2 p 0) := by
  obtain ⟨e0, e1, -⟩ := block_index2 t
  unfold iblk2
  rw [View.read_apply]
  show V c main_v32 _ = V c main_v32 _
  congr 1
  funext a
  apply Fin.ext
  match a with
  | ⟨0, _⟩ => show win2_0.index t (0 : Fin 2) * 3200 + 1 * r.val = p.val; rw [e0, hp]; omega
  | ⟨1, _⟩ => show win2_0.index t (1 : Fin 2) * 1 + 1 * 0 = 0; rw [e1]

/-- The first layer's weight row is one block: at every point its block is the whole array. -/
theorem w1_block2 (c : Dev nD) (t : Fin cfg2.N) :
    (iblk2 V c 1 t : Vec Ideal S1x256 .f32) = (V c main_v34 : S1x256.Idx → EReal) := by
  obtain ⟨-, -, -, -, e0, e1, -⟩ := block_index2 t
  unfold iblk2
  funext y
  rw [View.read_apply]
  show V c main_v34 _ = V c main_v34 _
  congr 1
  funext a
  apply Fin.ext
  match a with
  | ⟨0, _⟩ => show win2_1.index t (0 : Fin 2) * 1 + 1 * (y 0).val = (y 0).val; rw [e0]; omega
  | ⟨1, _⟩ => show win2_1.index t (1 : Fin 2) * 256 + 1 * (y 1).val = (y 1).val; rw [e1]; omega

/-- The first layer's bias row is one block. -/
theorem b1_block2 (c : Dev nD) (t : Fin cfg2.N) :
    (iblk2 V c 2 t : Vec Ideal S1x256 .f32) = (V c main_v37 : S1x256.Idx → EReal) := by
  obtain ⟨-, -, -, -, -, -, e0, e1, -⟩ := block_index2 t
  unfold iblk2
  funext y
  rw [View.read_apply]
  show V c main_v37 _ = V c main_v37 _
  congr 1
  funext a
  apply Fin.ext
  match a with
  | ⟨0, _⟩ => show win2_2.index t (0 : Fin 2) * 1 + 1 * (y 0).val = (y 0).val; rw [e0]; omega
  | ⟨1, _⟩ => show win2_2.index t (1 : Fin 2) * 256 + 1 * (y 1).val = (y 1).val; rw [e1]; omega

/-- The second layer's weight matrix is one block. -/
theorem w2_block2 (c : Dev nD) (t : Fin cfg2.N) :
    (iblk2 V c 3 t : Vec Ideal S256x256 .f32) = (V c main_v39 : S256x256.Idx → EReal) := by
  obtain ⟨-, -, -, -, -, -, -, -, e0, e1, -⟩ := block_index2 t
  unfold iblk2
  funext y
  rw [View.read_apply]
  show V c main_v39 _ = V c main_v39 _
  congr 1
  funext a
  apply Fin.ext
  match a with
  | ⟨0, _⟩ => show win2_3.index t (0 : Fin 2) * 256 + 1 * (y 0).val = (y 0).val; rw [e0]; omega
  | ⟨1, _⟩ => show win2_3.index t (1 : Fin 2) * 256 + 1 * (y 1).val = (y 1).val; rw [e1]; omega

/-- The second layer's bias row is one block. -/
theorem b2_block2 (c : Dev nD) (t : Fin cfg2.N) :
    (iblk2 V c 4 t : Vec Ideal S1x256 .f32) = (V c main_v42 : S1x256.Idx → EReal) := by
  obtain ⟨-, -, -, -, -, -, -, -, -, -, e0, e1⟩ := block_index2 t
  unfold iblk2
  funext y
  rw [View.read_apply]
  show V c main_v42 _ = V c main_v42 _
  congr 1
  funext a
  apply Fin.ext
  match a with
  | ⟨0, _⟩ => show win2_4.index t (0 : Fin 2) * 1 + 1 * (y 0).val = (y 0).val; rw [e0]; omega
  | ⟨1, _⟩ => show win2_4.index t (1 : Fin 2) * 256 + 1 * (y 1).val = (y 1).val; rw [e1]; omega

/-- What point `t` writes back is block `t` of the edge network of the whole input arrays: rows `t · 3200 …`. -/
theorem written_block2 (c : Dev nD) (t : Fin cfg2.N) :
    (dat2 (F := Ideal) V c).flushed 5 t
      = ((cfg2.win 5).blk t).view.read (Elt Ideal)
          (Cert.MlpSpec.edge (V c main_v32) (V c main_v34) (V c main_v37) (V c main_v39) (V c main_v42)) := by
  show (cfg2.win 5).cut (grid2.coords t) ((dat2 (F := Ideal) V c).after 5 t) = _
  rw [after2_5]
  unfold out2_5
  rw [View.canon_unit_zero zero_off2]
  simp only [View.ld_unit_zero (S := S3200x1) zero_off2, View.ld_unit_zero (S := S1x256) zero_off2,
    View.ld_unit_zero (S := S256x256) zero_off2]
  rw [KPay.k2_pay1_eq]
  obtain ⟨-, -, e0, e1, -⟩ := block_index2 t
  funext y
  rw [View.read_apply]
  refine edge_block_row2 (V c main_v32) (V c main_v34) (V c main_v37) (V c main_v39) (V c main_v42)
    (iblk2 V c 0 t) (iblk2 V c 1 t) (iblk2 V c 2 t) (iblk2 V c 3 t) (iblk2 V c 4 t) t.val
    (weights_block2 V c t) (w1_block2 V c t) (b1_block2 V c t) (w2_block2 V c t) (b2_block2 V c t) y _ ?_ ?_
  · show win2_5.index t (0 : Fin 2) * 3200 + 1 * (y 0).val = t.val * 3200 + (y 0).val
    rw [e0]; omega
  · show win2_5.index t (1 : Fin 2) * 256 + 1 * (y 1).val = (y 1).val
    rw [e1]; omega

/-- An index of the output array is in point `t`'s block iff each coordinate is in the block's range on its axis. -/
theorem mem_block2 (t : Fin cfg2.N) (i : S800000x256.Idx) :
    i ∈ ((cfg2.win 5).blk t).view.set
      ↔ ∀ a : Fin 2, win2_5.index t a * S3200x256.size a ≤ (i a).val
          ∧ (i a).val < win2_5.index t a * S3200x256.size a + S3200x256.size a := by
  show i ∈ ((View.whole main_v43).slice (win2_5.rect t)).set ↔ _
  rw [View.set_slice_whole, Rect.mem_set_unit]
  exact Iff.rfl

/-- After region 2 its output array is the edge network of its five input arrays: row `p` is written by point
    `p / 3200`, and every point writes its rows of that network. -/
theorem arr2 (c : Dev nD) :
    (dat2 (F := Ideal) V c).arrAt 5 cfg2.N
      = Cert.MlpSpec.edge (V c main_v32) (V c main_v34) (V c main_v37) (V c main_v39) (V c main_v42) := by
  refine (dat2 (F := Ideal) V c).arrAt_eq_of_cover 5 _ (fun t _ => written_block2 V c t) fun i => ?_
  have hi0 : (i 0).val < 800000 := (i 0).isLt
  have hi1 : (i 1).val < 256 := (i 1).isLt
  have ht : (i 0).val / 3200 < 250 := by omega
  obtain ⟨-, -, e0, e1, -⟩ := block_index2 ⟨(i 0).val / 3200, ht⟩
  refine ⟨⟨(i 0).val / 3200, ht⟩, flush2_5 _, ?_⟩
  rw [mem_block2]
  intro a
  match a with
  | ⟨0, _⟩ =>
    show win2_5.index ⟨(i 0).val / 3200, ht⟩ (0 : Fin 2) * 3200 ≤ (i 0).val
      ∧ (i 0).val < win2_5.index ⟨(i 0).val / 3200, ht⟩ (0 : Fin 2) * 3200 + 3200
    rw [e0]
    show (i 0).val / 3200 * 3200 ≤ (i 0).val ∧ (i 0).val < (i 0).val / 3200 * 3200 + 3200
    omega
  | ⟨1, _⟩ =>
    show win2_5.index ⟨(i 0).val / 3200, ht⟩ (1 : Fin 2) * 256 ≤ (i 1).val
      ∧ (i 1).val < win2_5.index ⟨(i 0).val / 3200, ht⟩ (1 : Fin 2) * 256 + 256
    rw [e1]
    omega

end Cert.KernelIdeal.KRegion

end
-- ==== Proof.KRegion3.lean ====
/-
  Region 3 (layer 1's node kernel) as one array: the grid's points write disjoint row blocks that tile the output, and
  each block is the node network of that block of rows, so after the region the output array is the node network of the
  whole input arrays as the region found them.
-/
import proofs.«146717_j90881507983367_1_alg».proof.Proof.KernelIdealFrame
import proofs.«146717_j90881507983367_1_alg».proof.Proof.KPayNode
import proofs.«146717_j90881507983367_1_alg».proof.Proof.MlpSpec
import Idealize.ShloMosaic.Lib.Pipeline.Value
import Idealize.ShloMosaic.Lib.ValueIdx

set_option maxRecDepth 16384

noncomputable section

namespace Cert.KernelIdeal.KRegion

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The block offset of a load or store of a whole staging buffer. -/
theorem zero_off3 : (![0, 0] : Fin 2 → Nat) = fun _ => 0 := funext fun a => by fin_cases a <;> rfl

/-- The index maps over the grid: at point `t` the feature window and the output window are at row block `t`, column
    block 0; each of the four parameter windows is at block (0, 0), its one block. -/
theorem block_index3 : ∀ t : Fin cfg3.N, win3_0.index t (0 : Fin 2) = t.val ∧ win3_0.index t (1 : Fin 2) = 0
    ∧ win3_5.index t (0 : Fin 2) = t.val ∧ win3_5.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- What point `t` writes back is rows `2000 t` to `2000 t + 1999` of the node network of the whole arrays: row `r` of the
    block's network reads row `r` of the feature block, which is row `2000 t + r` of the feature array, and the four
    parameter blocks are the parameter arrays. -/
theorem written3 (c : Dev nD) (t : Fin cfg3.N) :
    (dat3 (F := Ideal) V c).flushed 5 t = ((cfg3.win 5).blk t).view.read (Elt Ideal)
      (Cert.MlpSpec.node (V c main_v48) (V c main_v50) (V c main_v53) (V c main_v55) (V c main_v58)) := by
  show (cfg3.win 5).cut (grid3.coords t) ((dat3 (F := Ideal) V c).after 5 t) = _
  rw [after3_5]
  unfold out3_5
  rw [View.canon_unit_zero zero_off3]
  simp only [View.ld_unit_zero (S := S2000x256) zero_off3, View.ld_unit_zero (S := S256x256) zero_off3, View.ld_unit_zero (S := S1x256) zero_off3]
  rw [KPay.k3_pay1_eq]
  obtain ⟨e00, e01, e50, e51, e10, e11, e20, e21, e30, e31, e40, e41⟩ := block_index3 t
  have ht : t.val < 25 := t.isLt
  -- window 1's one block is the whole of the first layer's weights
  have h1 : iblk3 V c 1 t = V c main_v50 := by
    funext z
    show V c main_v50 (((cfg3.win 1).blk t).view.emb z) = V c main_v50 z
    refine congrArg _ (funext fun a => Fin.ext ?_)
    match a with
    | ⟨0, _⟩ => show win3_1.index t (0 : Fin 2) * 256 + 1 * (z 0).val = (z 0).val; omega
    | ⟨1, _⟩ => show win3_1.index t (1 : Fin 2) * 256 + 1 * (z 1).val = (z 1).val; omega
  -- window 2's one block is the whole of the first bias
  have h2 : iblk3 V c 2 t = V c main_v53 := by
    funext z
    show V c main_v53 (((cfg3.win 2).blk t).view.emb z) = V c main_v53 z
    refine congrArg _ (funext fun a => Fin.ext ?_)
    match a with
    | ⟨0, _⟩ => show win3_2.index t (0 : Fin 2) * 1 + 1 * (z 0).val = (z 0).val; omega
    | ⟨1, _⟩ => show win3_2.index t (1 : Fin 2) * 256 + 1 * (z 1).val = (z 1).val; omega
  -- window 3's one block is the whole of the second layer's weights
  have h3 : iblk3 V c 3 t = V c main_v55 := by
    funext z
    show V c main_v55 (((cfg3.win 3).blk t).view.emb z) = V c main_v55 z
    refine congrArg _ (funext fun a => Fin.ext ?_)
    match a with
    | ⟨0, _⟩ => show win3_3.index t (0 : Fin 2) * 256 + 1 * (z 0).val = (z 0).val; omega
    | ⟨1, _⟩ => show win3_3.index t (1 : Fin 2) * 256 + 1 * (z 1).val = (z 1).val; omega
  -- window 4's one block is the whole of the second bias
  have h4 : iblk3 V c 4 t = V c main_v58 := by
    funext z
    show V c main_v58 (((cfg3.win 4).blk t).view.emb z) = V c main_v58 z
    refine congrArg _ (funext fun a => Fin.ext ?_)
    match a with
    | ⟨0, _⟩ => show win3_4.index t (0 : Fin 2) * 1 + 1 * (z 0).val = (z 0).val; omega
    | ⟨1, _⟩ => show win3_4.index t (1 : Fin 2) * 256 + 1 * (z 1).val = (z 1).val; omega
  funext y
  obtain ⟨r, q, rfl⟩ : ∃ (r : Fin 2000) (q : Fin 256), y = ix2 r q := ⟨y 0, y 1, eq_ix2 y⟩
  have hr : r.val < 2000 := r.isLt
  -- entry (r, q) of the output block is entry (2000 t + r, q) of the output array
  have hout : ((cfg3.win 5).blk t).view.emb (ix2 r q) = ix2 (⟨t.val * 2000 + r.val, by omega⟩ : Fin 50000) q := by
    funext a; apply Fin.ext
    match a with
    | ⟨0, _⟩ => show win3_5.index t (0 : Fin 2) * 2000 + 1 * r.val = t.val * 2000 + r.val; omega
    | ⟨1, _⟩ => show win3_5.index t (1 : Fin 2) * 256 + 1 * q.val = q.val; omega
  show Cert.MlpSpec.node (iblk3 V c 0 t) (iblk3 V c 1 t) (iblk3 V c 2 t) (iblk3 V c 3 t) (iblk3 V c 4 t) (ix2 r q)
    = Cert.MlpSpec.node (V c main_v48) (V c main_v50) (V c main_v53) (V c main_v55) (V c main_v58) (((cfg3.win 5).blk t).view.emb (ix2 r q))
  rw [hout, h1, h2, h3, h4]
  -- a row of the network reads one row of the features: entry (r, k) of the feature block is entry (2000 t + r, k) of
  -- the feature array
  refine Cert.MlpSpec.node_row _ _ _ _ _ _ r _ q fun k => ?_
  show V c main_v48 (((cfg3.win 0).blk t).view.emb (ix2 r k)) = V c main_v48 (ix2 (⟨t.val * 2000 + r.val, by omega⟩ : Fin 50000) k)
  refine congrArg _ (funext fun a => Fin.ext ?_)
  match a with
  | ⟨0, _⟩ => show win3_0.index t (0 : Fin 2) * 2000 + 1 * r.val = t.val * 2000 + r.val; omega
  | ⟨1, _⟩ => show win3_0.index t (1 : Fin 2) * 256 + 1 * k.val = k.val; omega

/-- An index of the output array is in point `t`'s block iff each coordinate is in the block's range on its axis. -/
theorem mem_block3 (t : Fin cfg3.N) (i : S50000x256.Idx) :
    i ∈ ((cfg3.win 5).blk t).view.set ↔ ∀ a : Fin 2, win3_5.index t a * S2000x256.size a ≤ (i a).val ∧ (i a).val < win3_5.index t a * S2000x256.size a + S2000x256.size a := by
  show i ∈ ((View.whole main_v59).slice (win3_5.rect t)).set ↔ _
  rw [View.set_slice_whole, Rect.mem_set_unit]
  exact Iff.rfl

/-- After region 3 its output array is the node network of its five input arrays. -/
theorem arr3 (c : Dev nD) :
    (dat3 (F := Ideal) V c).arrAt 5 cfg3.N
      = Cert.MlpSpec.node (V c main_v48) (V c main_v50) (V c main_v53) (V c main_v55) (V c main_v58) := by
  -- every point writes back its block of the network, and the 25 blocks of 2000 rows tile the 50000 rows: row `i` is
  -- in the block of point `i / 2000`
  refine (dat3 (F := Ideal) V c).arrAt_eq_of_cover 5 _ (fun t _ => written3 V c t) fun i => ?_
  have hi0 : (i 0).val < 50000 := (i 0).isLt
  have hi1 : (i 1).val < 256 := (i 1).isLt
  have hlt : (i 0).val / 2000 < 25 := by omega
  refine ⟨⟨(i 0).val / 2000, hlt⟩, flush3_5 _, ?_⟩
  rw [mem_block3]
  obtain ⟨-, -, e50, e51, -⟩ := block_index3 ⟨(i 0).val / 2000, hlt⟩
  intro a
  match a with
  | ⟨0, _⟩ =>
    show win3_5.index ⟨(i 0).val / 2000, hlt⟩ (0 : Fin 2) * 2000 ≤ (i 0).val ∧ (i 0).val < win3_5.index ⟨(i 0).val / 2000, hlt⟩ (0 : Fin 2) * 2000 + 2000
    rw [e50]
    show (i 0).val / 2000 * 2000 ≤ (i 0).val ∧ (i 0).val < (i 0).val / 2000 * 2000 + 2000
    omega
  | ⟨1, _⟩ =>
    show win3_5.index ⟨(i 0).val / 2000, hlt⟩ (1 : Fin 2) * 256 ≤ (i 1).val ∧ (i 1).val < win3_5.index ⟨(i 0).val / 2000, hlt⟩ (1 : Fin 2) * 256 + 256
    rw [e51]
    omega

end Cert.KernelIdeal.KRegion

end
-- ==== Proof.KValue.lean ====
/-
  The idealized kernel program's result as two layers of the shared networks: reading the buffers back through @main,
  each layer's node kernel leaves the node network of what it found, which is the scatter-add (by destination node) of the
  edge kernel's output, which is the edge network of slices of the arguments; the two layers are joined along a new
  leading axis.
-/
import proofs.«146717_j90881507983367_1_alg».proof.Proof.KFold
import proofs.«146717_j90881507983367_1_alg».proof.Proof.KRegion0
import proofs.«146717_j90881507983367_1_alg».proof.Proof.KRegion1
import proofs.«146717_j90881507983367_1_alg».proof.Proof.KRegion2
import proofs.«146717_j90881507983367_1_alg».proof.Proof.KRegion3

set_option maxRecDepth 16384

noncomputable section

namespace Cert.KernelIdeal.KValue

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- Layer 0 of the kernel program, from the launch memory. -/
def layer0 (c : Dev nD) : FVec Ideal S50000x256 .f32 :=
  Cert.MlpSpec.node (Host.scatterAdd (F := Ideal) scatter_S50000x256_S800000x1_S800000x256_1_0_0_1 (broadcastInDim S50000x256 ![] bcast_S_S50000x256 (constant (F := Ideal) S_ .f32 0x00000000#32)) (broadcastInDim S800000x1 ![0] bcast_S800000_S800000x1_0 (shapeCast _ (extractStridedSlice S1x1x800000 ![0, 1, 0] (m ((c : Thread nD τ).loc main_arg0)) slices_S2x2x800000_S1x1x800000_0_1_0) shapeCasts_S1x1x800000_S800000)) (Cert.MlpSpec.edge (shapeCast _ (shapeCast _ (extractStridedSlice S1x800000 ![0, 0] (m ((c : Thread nD τ).loc main_arg1)) slices_S2x800000_S1x800000_0_0) shapeCasts_S1x800000_S800000) shapeCasts_S800000_S800000x1) (shapeCast _ (extractStridedSlice S1x1x256 ![0, 0, 0] (m ((c : Thread nD τ).loc main_arg2)) slices_S2x1x256_S1x1x256_0_0_0) shapeCasts_S1x1x256_S1x256) (shapeCast _ (shapeCast _ (extractStridedSlice S1x256 ![0, 0] (m ((c : Thread nD τ).loc main_arg3)) slices_S2x256_S1x256_0_0) shapeCasts_S1x256_S256) shapeCasts_S256_S1x256) (shapeCast _ (extractStridedSlice S1x256x256 ![0, 0, 0] (m ((c : Thread nD τ).loc main_arg4)) slices_S2x256x256_S1x256x256_0_0_0) shapeCasts_S1x256x256_S256x256) (shapeCast _ (shapeCast _ (extractStridedSlice S1x256 ![0, 0] (m ((c : Thread nD τ).loc main_arg5)) slices_S2x256_S1x256_0_0) shapeCasts_S1x256_S256) shapeCasts_S256_S1x256))) (shapeCast _ (extractStridedSlice S1x256x256 ![0, 0, 0] (m ((c : Thread nD τ).loc main_arg6)) slices_S2x256x256_S1x256x256_0_0_0) shapeCasts_S1x256x256_S256x256) (shapeCast _ (shapeCast _ (extractStridedSlice S1x256 ![0, 0] (m ((c : Thread nD τ).loc main_arg7)) slices_S2x256_S1x256_0_0) shapeCasts_S1x256_S256) shapeCasts_S256_S1x256) (shapeCast _ (extractStridedSlice S1x256x256 ![0, 0, 0] (m ((c : Thread nD τ).loc main_arg8)) slices_S2x256x256_S1x256x256_0_0_0) shapeCasts_S1x256x256_S256x256) (shapeCast _ (shapeCast _ (extractStridedSlice S1x256 ![0, 0] (m ((c : Thread nD τ).loc main_arg9)) slices_S2x256_S1x256_0_0) shapeCasts_S1x256_S256) shapeCasts_S256_S1x256)

/-- Layer 1 of the kernel program, from the launch memory. -/
def layer1 (c : Dev nD) : FVec Ideal S50000x256 .f32 :=
  Cert.MlpSpec.node (Host.scatterAdd (F := Ideal) scatter_S50000x256_S800000x1_S800000x256_1_0_0_1 (broadcastInDim S50000x256 ![] bcast_S_S50000x256 (constant (F := Ideal) S_ .f32 0x00000000#32)) (broadcastInDim S800000x1 ![0] bcast_S800000_S800000x1_0 (shapeCast _ (extractStridedSlice S1x1x800000 ![1, 1, 0] (m ((c : Thread nD τ).loc main_arg0)) slices_S2x2x800000_S1x1x800000_1_1_0) shapeCasts_S1x1x800000_S800000)) (Cert.MlpSpec.edge (shapeCast _ (shapeCast _ (extractStridedSlice S1x800000 ![1, 0] (m ((c : Thread nD τ).loc main_arg1)) slices_S2x800000_S1x800000_1_0) shapeCasts_S1x800000_S800000) shapeCasts_S800000_S800000x1) (shapeCast _ (extractStridedSlice S1x1x256 ![1, 0, 0] (m ((c : Thread nD τ).loc main_arg2)) slices_S2x1x256_S1x1x256_1_0_0) shapeCasts_S1x1x256_S1x256) (shapeCast _ (shapeCast _ (extractStridedSlice S1x256 ![1, 0] (m ((c : Thread nD τ).loc main_arg3)) slices_S2x256_S1x256_1_0) shapeCasts_S1x256_S256) shapeCasts_S256_S1x256) (shapeCast _ (extractStridedSlice S1x256x256 ![1, 0, 0] (m ((c : Thread nD τ).loc main_arg4)) slices_S2x256x256_S1x256x256_1_0_0) shapeCasts_S1x256x256_S256x256) (shapeCast _ (shapeCast _ (extractStridedSlice S1x256 ![1, 0] (m ((c : Thread nD τ).loc main_arg5)) slices_S2x256_S1x256_1_0) shapeCasts_S1x256_S256) shapeCasts_S256_S1x256))) (shapeCast _ (extractStridedSlice S1x256x256 ![1, 0, 0] (m ((c : Thread nD τ).loc main_arg6)) slices_S2x256x256_S1x256x256_1_0_0) shapeCasts_S1x256x256_S256x256) (shapeCast _ (shapeCast _ (extractStridedSlice S1x256 ![1, 0] (m ((c : Thread nD τ).loc main_arg7)) slices_S2x256_S1x256_1_0) shapeCasts_S1x256_S256) shapeCasts_S256_S1x256) (shapeCast _ (extractStridedSlice S1x256x256 ![1, 0, 0] (m ((c : Thread nD τ).loc main_arg8)) slices_S2x256x256_S1x256x256_1_0_0) shapeCasts_S1x256x256_S256x256) (shapeCast _ (shapeCast _ (extractStridedSlice S1x256 ![1, 0] (m ((c : Thread nD τ).loc main_arg9)) slices_S2x256_S1x256_1_0) shapeCasts_S1x256_S256) shapeCasts_S256_S1x256)

/-- What layer 0's node kernel leaves. -/
theorem out0_eq (c : Dev nD) : (dat1 (F := Ideal) (V3 m ρ) c).arrAt 5 cfg1.N = layer0 m c := by
  rw [KRegion.arr1 (V3 m ρ) c, KFold.V3_v18 m ρ c, KFold.V3_v20 m ρ c, KFold.V3_v23 m ρ c, KFold.V3_v25 m ρ c, KFold.V3_v28 m ρ c,
    KRegion.arr0 (V1 m ρ) c, KFold.V1_v2 m ρ c, KFold.V1_v4 m ρ c, KFold.V1_v7 m ρ c, KFold.V1_v9 m ρ c, KFold.V1_v12 m ρ c]
  rfl

/-- What layer 1's node kernel leaves. -/
theorem out1_eq (c : Dev nD) : (dat3 (F := Ideal) (V7 m ρ) c).arrAt 5 cfg3.N = layer1 m c := by
  rw [KRegion.arr3 (V7 m ρ) c, KFold.V7_v48 m ρ c, KFold.V7_v50 m ρ c, KFold.V7_v53 m ρ c, KFold.V7_v55 m ρ c, KFold.V7_v58 m ρ c,
    KRegion.arr2 (V5 m ρ) c, KFold.V5_v32 m ρ c, KFold.V5_v34 m ρ c, KFold.V5_v37 m ρ c, KFold.V5_v39 m ρ c, KFold.V5_v42 m ρ c]
  rfl

/-- The result buffer at the end of @main: the two layers, stacked. -/
theorem result_eq (c : Dev nD) : W9 m ρ c (Proc.devRef .tc main_v62)
    = concatenate S2x50000x256 0 [⟨S1x50000x256, broadcastInDim S1x50000x256 ![1, 2] bcast_S50000x256_S1x50000x256_1_2 (layer0 m c)⟩,
        ⟨S1x50000x256, broadcastInDim S1x50000x256 ![1, 2] bcast_S50000x256_S1x50000x256_1_2 (layer1 m c)⟩]
        concatenates_S1x50000x256_S1x50000x256_S2x50000x256_d0 := by
  rw [KFold.W9_v62 m ρ c, out0_eq m ρ c, out1_eq m ρ c]

end Cert.KernelIdeal.KValue

end
-- ==== Proof.RefMlp.lean ====
/-
  The reference's two networks as host operations, index by index: a product with one contracted axis is a finite sum,
  a broadcast bias reads its one row, and the clamp is a maximum with zero — so the host chain of a layer's edge part is
  `MlpSpec.edge` of its operands and the chain of its node part is `MlpSpec.node`.
-/
import proofs.«146717_j90881507983367_1_alg».proof.Proof.Gen.ReferenceIdeal
import proofs.«146717_j90881507983367_1_alg».proof.Proof.MlpSpec
import proofs.«146717_j90881507983367_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefMlp

open Cert.ReferenceIdeal Cert.ReferenceIdeal.Gen Idealize.ShloMosaic Idealize.ShloMosaic.ValueIdx

/-! ## The edge part's first product: `[800000, 1] × [1, 256]`, one contracted index -/

/-- The left operand's row coordinate is the output's row. -/
theorem lhsE1_0 (i : S800000x256.Idx) (q : dot_S800000x1_S1x256_S800000x256_1_0_0_1_n_n.contr.Idx) :
    (dot_S800000x1_S1x256_S800000x256_1_0_0_1_n_n.lhsIdx i q 0).val = (i 0).val := by
  unfold DotDims.lhsIdx
  rw [dif_neg (show ¬(0 : Fin S800000x1.rank) ∈ dot_S800000x1_S1x256_S800000x256_1_0_0_1_n_n.lhsBatch by decide), dif_pos (show (0 : Fin S800000x1.rank) ∈ dot_S800000x1_S1x256_S800000x256_1_0_0_1_n_n.lhsNonContracting by decide)]
  rfl
/-- The left operand's column coordinate is the contracted index. -/
theorem lhsE1_1 (i : S800000x256.Idx) (q : dot_S800000x1_S1x256_S800000x256_1_0_0_1_n_n.contr.Idx) :
    (dot_S800000x1_S1x256_S800000x256_1_0_0_1_n_n.lhsIdx i q 1).val = (q ⟨0, by decide⟩).val :=
  dot_S800000x1_S1x256_S800000x256_1_0_0_1_n_n.lhsIdx_val_of_single rfl i q
/-- The right operand's row coordinate is the contracted index. -/
theorem rhsE1_0 (i : S800000x256.Idx) (q : dot_S800000x1_S1x256_S800000x256_1_0_0_1_n_n.contr.Idx) :
    (dot_S800000x1_S1x256_S800000x256_1_0_0_1_n_n.rhsIdx i q 0).val = (q ⟨0, by decide⟩).val :=
  dot_S800000x1_S1x256_S800000x256_1_0_0_1_n_n.rhsIdx_val_of_single rfl i q
/-- The right operand's column coordinate is the output's column. -/
theorem rhsE1_1 (i : S800000x256.Idx) (q : dot_S800000x1_S1x256_S800000x256_1_0_0_1_n_n.contr.Idx) :
    (dot_S800000x1_S1x256_S800000x256_1_0_0_1_n_n.rhsIdx i q 1).val = (i 1).val := by
  unfold DotDims.rhsIdx
  rw [dif_neg (show ¬(1 : Fin S1x256.rank) ∈ dot_S800000x1_S1x256_S800000x256_1_0_0_1_n_n.rhsBatch by decide), dif_pos (show (1 : Fin S1x256.rank) ∈ dot_S800000x1_S1x256_S800000x256_1_0_0_1_n_n.rhsNonContracting by decide)]
  rfl
/-- The product at `(p, j)` is `∑ k, l (p, k) · r (k, j)`. -/
theorem dotE1_apply (l : FVec Ideal S800000x1 .f32) (r : FVec Ideal S1x256 .f32) (p : Fin 800000) (j : Fin 256) :
    Host.dotGeneral (F := Ideal) dot_S800000x1_S1x256_S800000x256_1_0_0_1_n_n none l r (ix2 p j)
      = ∑ k : Fin 1, l (ix2 p k) * r (ix2 k j) := by
  simp only [Host.dotGeneral]
  rw [Ideal.dotGeneral_apply, ← Equiv.sum_comp (ValueIdx.contrEquiv1 dot_S800000x1_S1x256_S800000x256_1_0_0_1_n_n 1 rfl rfl).symm]
  refine Finset.sum_congr rfl fun k _ => ?_
  have hk := ValueIdx.contrEquiv1_symm_val dot_S800000x1_S1x256_S800000x256_1_0_0_1_n_n 1 rfl rfl k
  have el : dot_S800000x1_S1x256_S800000x256_1_0_0_1_n_n.lhsIdx (ix2 p j) ((ValueIdx.contrEquiv1 dot_S800000x1_S1x256_S800000x256_1_0_0_1_n_n 1 rfl rfl).symm k) = ix2 p k := funext fun a => Fin.ext (by
    match a with
    | ⟨0, _⟩ => exact lhsE1_0 _ _
    | ⟨1, _⟩ => exact (lhsE1_1 _ _).trans hk)
  have er : dot_S800000x1_S1x256_S800000x256_1_0_0_1_n_n.rhsIdx (ix2 p j) ((ValueIdx.contrEquiv1 dot_S800000x1_S1x256_S800000x256_1_0_0_1_n_n 1 rfl rfl).symm k) = ix2 k j := funext fun a => Fin.ext (by
    match a with
    | ⟨0, _⟩ => exact (rhsE1_0 _ _).trans hk
    | ⟨1, _⟩ => exact rhsE1_1 _ _)
  rw [el, er]

/-! ## The edge part's second product: `[800000, 256] × [256, 256]` -/

/-- The left operand's row coordinate is the output's row. -/
theorem lhsE2_0 (i : S800000x256.Idx) (q : dot_S800000x256_S256x256_S800000x256_1_0_0_1_n_n.contr.Idx) :
    (dot_S800000x256_S256x256_S800000x256_1_0_0_1_n_n.lhsIdx i q 0).val = (i 0).val := by
  unfold DotDims.lhsIdx
  rw [dif_neg (show ¬(0 : Fin S800000x256.rank) ∈ dot_S800000x256_S256x256_S800000x256_1_0_0_1_n_n.lhsBatch by decide), dif_pos (show (0 : Fin S800000x256.rank) ∈ dot_S800000x256_S256x256_S800000x256_1_0_0_1_n_n.lhsNonContracting by decide)]
  rfl
/-- The left operand's column coordinate is the contracted index. -/
theorem lhsE2_1 (i : S800000x256.Idx) (q : dot_S800000x256_S256x256_S800000x256_1_0_0_1_n_n.contr.Idx) :
    (dot_S800000x256_S256x256_S800000x256_1_0_0_1_n_n.lhsIdx i q 1).val = (q ⟨0, by decide⟩).val :=
  dot_S800000x256_S256x256_S800000x256_1_0_0_1_n_n.lhsIdx_val_of_single rfl i q
/-- The right operand's row coordinate is the contracted index. -/
theorem rhsE2_0 (i : S800000x256.Idx) (q : dot_S800000x256_S256x256_S800000x256_1_0_0_1_n_n.contr.Idx) :
    (dot_S800000x256_S256x256_S800000x256_1_0_0_1_n_n.rhsIdx i q 0).val = (q ⟨0, by decide⟩).val :=
  dot_S800000x256_S256x256_S800000x256_1_0_0_1_n_n.rhsIdx_val_of_single rfl i q
/-- The right operand's column coordinate is the output's column. -/
theorem rhsE2_1 (i : S800000x256.Idx) (q : dot_S800000x256_S256x256_S800000x256_1_0_0_1_n_n.contr.Idx) :
    (dot_S800000x256_S256x256_S800000x256_1_0_0_1_n_n.rhsIdx i q 1).val = (i 1).val := by
  unfold DotDims.rhsIdx
  rw [dif_neg (show ¬(1 : Fin S256x256.rank) ∈ dot_S800000x256_S256x256_S800000x256_1_0_0_1_n_n.rhsBatch by decide), dif_pos (show (1 : Fin S256x256.rank) ∈ dot_S800000x256_S256x256_S800000x256_1_0_0_1_n_n.rhsNonContracting by decide)]
  rfl
/-- The product at `(p, j)` is `∑ k, l (p, k) · r (k, j)`. -/
theorem dotE2_apply (l : FVec Ideal S800000x256 .f32) (r : FVec Ideal S256x256 .f32) (p : Fin 800000) (j : Fin 256) :
    Host.dotGeneral (F := Ideal) dot_S800000x256_S256x256_S800000x256_1_0_0_1_n_n none l r (ix2 p j)
      = ∑ k : Fin 256, l (ix2 p k) * r (ix2 k j) := by
  simp only [Host.dotGeneral]
  rw [Ideal.dotGeneral_apply, ← Equiv.sum_comp (ValueIdx.contrEquiv1 dot_S800000x256_S256x256_S800000x256_1_0_0_1_n_n 256 rfl rfl).symm]
  refine Finset.sum_congr rfl fun k _ => ?_
  have hk := ValueIdx.contrEquiv1_symm_val dot_S800000x256_S256x256_S800000x256_1_0_0_1_n_n 256 rfl rfl k
  have el : dot_S800000x256_S256x256_S800000x256_1_0_0_1_n_n.lhsIdx (ix2 p j) ((ValueIdx.contrEquiv1 dot_S800000x256_S256x256_S800000x256_1_0_0_1_n_n 256 rfl rfl).symm k) = ix2 p k := funext fun a => Fin.ext (by
    match a with
    | ⟨0, _⟩ => exact lhsE2_0 _ _
    | ⟨1, _⟩ => exact (lhsE2_1 _ _).trans hk)
  have er : dot_S800000x256_S256x256_S800000x256_1_0_0_1_n_n.rhsIdx (ix2 p j) ((ValueIdx.contrEquiv1 dot_S800000x256_S256x256_S800000x256_1_0_0_1_n_n 256 rfl rfl).symm k) = ix2 k j := funext fun a => Fin.ext (by
    match a with
    | ⟨0, _⟩ => exact (rhsE2_0 _ _).trans hk
    | ⟨1, _⟩ => exact rhsE2_1 _ _)
  rw [el, er]

/-! ## The node part's products: `[50000, 256] × [256, 256]` -/

/-- The left operand's row coordinate is the output's row. -/
theorem lhsN_0 (i : S50000x256.Idx) (q : dot_S50000x256_S256x256_S50000x256_1_0_0_1_n_n.contr.Idx) :
    (dot_S50000x256_S256x256_S50000x256_1_0_0_1_n_n.lhsIdx i q 0).val = (i 0).val := by
  unfold DotDims.lhsIdx
  rw [dif_neg (show ¬(0 : Fin S50000x256.rank) ∈ dot_S50000x256_S256x256_S50000x256_1_0_0_1_n_n.lhsBatch by decide), dif_pos (show (0 : Fin S50000x256.rank) ∈ dot_S50000x256_S256x256_S50000x256_1_0_0_1_n_n.lhsNonContracting by decide)]
  rfl
/-- The left operand's column coordinate is the contracted index. -/
theorem lhsN_1 (i : S50000x256.Idx) (q : dot_S50000x256_S256x256_S50000x256_1_0_0_1_n_n.contr.Idx) :
    (dot_S50000x256_S256x256_S50000x256_1_0_0_1_n_n.lhsIdx i q 1).val = (q ⟨0, by decide⟩).val :=
  dot_S50000x256_S256x256_S50000x256_1_0_0_1_n_n.lhsIdx_val_of_single rfl i q
/-- The right operand's row coordinate is the contracted index. -/
theorem rhsN_0 (i : S50000x256.Idx) (q : dot_S50000x256_S256x256_S50000x256_1_0_0_1_n_n.contr.Idx) :
    (dot_S50000x256_S256x256_S50000x256_1_0_0_1_n_n.rhsIdx i q 0).val = (q ⟨0, by decide⟩).val :=
  dot_S50000x256_S256x256_S50000x256_1_0_0_1_n_n.rhsIdx_val_of_single rfl i q
/-- The right operand's column coordinate is the output's column. -/
theorem rhsN_1 (i : S50000x256.Idx) (q : dot_S50000x256_S256x256_S50000x256_1_0_0_1_n_n.contr.Idx) :
    (dot_S50000x256_S256x256_S50000x256_1_0_0_1_n_n.rhsIdx i q 1).val = (i 1).val := by
  unfold DotDims.rhsIdx
  rw [dif_neg (show ¬(1 : Fin S256x256.rank) ∈ dot_S50000x256_S256x256_S50000x256_1_0_0_1_n_n.rhsBatch by decide), dif_pos (show (1 : Fin S256x256.rank) ∈ dot_S50000x256_S256x256_S50000x256_1_0_0_1_n_n.rhsNonContracting by decide)]
  rfl
/-- The product at `(p, j)` is `∑ k, l (p, k) · r (k, j)`. -/
theorem dotN_apply (l : FVec Ideal S50000x256 .f32) (r : FVec Ideal S256x256 .f32) (p : Fin 50000) (j : Fin 256) :
    Host.dotGeneral (F := Ideal) dot_S50000x256_S256x256_S50000x256_1_0_0_1_n_n none l r (ix2 p j)
      = ∑ k : Fin 256, l (ix2 p k) * r (ix2 k j) := by
  simp only [Host.dotGeneral]
  rw [Ideal.dotGeneral_apply, ← Equiv.sum_comp (ValueIdx.contrEquiv1 dot_S50000x256_S256x256_S50000x256_1_0_0_1_n_n 256 rfl rfl).symm]
  refine Finset.sum_congr rfl fun k _ => ?_
  have hk := ValueIdx.contrEquiv1_symm_val dot_S50000x256_S256x256_S50000x256_1_0_0_1_n_n 256 rfl rfl k
  have el : dot_S50000x256_S256x256_S50000x256_1_0_0_1_n_n.lhsIdx (ix2 p j) ((ValueIdx.contrEquiv1 dot_S50000x256_S256x256_S50000x256_1_0_0_1_n_n 256 rfl rfl).symm k) = ix2 p k := funext fun a => Fin.ext (by
    match a with
    | ⟨0, _⟩ => exact lhsN_0 _ _
    | ⟨1, _⟩ => exact (lhsN_1 _ _).trans hk)
  have er : dot_S50000x256_S256x256_S50000x256_1_0_0_1_n_n.rhsIdx (ix2 p j) ((ValueIdx.contrEquiv1 dot_S50000x256_S256x256_S50000x256_1_0_0_1_n_n 256 rfl rfl).symm k) = ix2 k j := funext fun a => Fin.ext (by
    match a with
    | ⟨0, _⟩ => exact (rhsN_0 _ _).trans hk
    | ⟨1, _⟩ => exact rhsN_1 _ _)
  rw [el, er]

/-! ## The bias rows and the clamp's zero at an index -/

/-- A `[1, 256]` row spread over the rows reads, at `(p, j)`, the row at `(0, j)`. -/
theorem bias800000_apply (B : FVec Ideal S1x256 .f32) (p : Fin 800000) (j : Fin 256) :
    broadcastInDim S800000x256 ![0, 1] bcast_S1x256_S800000x256_0_1 B (ix2 p j) = B (ix2 0 j) :=
  broadcastInDim_apply _ bcast_S1x256_S800000x256_0_1 B (ix2 p j) (ix2 0 j) (fun a => match a with
    | ⟨0, _⟩ => by show 0 = if (1 : Nat) = 1 then 0 else p.val; rw [if_pos rfl]
    | ⟨1, _⟩ => by show j.val = if (256 : Nat) = 1 then 0 else j.val; rw [if_neg (by decide)])
/-- The scalar zero spread over the array reads the zero everywhere. -/
theorem zero800000_apply (p : Fin 800000) (j : Fin 256) :
    broadcastInDim S800000x256 ![] bcast_S_S800000x256 (constant (F := Ideal) S_ .f32 0x00000000#32) (ix2 p j) = Cert.MlpSpec.zero :=
  (broadcastInDim_apply _ bcast_S_S800000x256 (constant (F := Ideal) S_ .f32 0x00000000#32) (ix2 p j) ix0 (fun a => a.elim0)).trans rfl

/-- A `[1, 256]` row spread over the rows reads, at `(p, j)`, the row at `(0, j)`. -/
theorem bias50000_apply (B : FVec Ideal S1x256 .f32) (p : Fin 50000) (j : Fin 256) :
    broadcastInDim S50000x256 ![0, 1] bcast_S1x256_S50000x256_0_1 B (ix2 p j) = B (ix2 0 j) :=
  broadcastInDim_apply _ bcast_S1x256_S50000x256_0_1 B (ix2 p j) (ix2 0 j) (fun a => match a with
    | ⟨0, _⟩ => by show 0 = if (1 : Nat) = 1 then 0 else p.val; rw [if_pos rfl]
    | ⟨1, _⟩ => by show j.val = if (256 : Nat) = 1 then 0 else j.val; rw [if_neg (by decide)])
/-- The scalar zero spread over the array reads the zero everywhere. -/
theorem zero50000_apply (p : Fin 50000) (j : Fin 256) :
    broadcastInDim S50000x256 ![] bcast_S_S50000x256 (constant (F := Ideal) S_ .f32 0x00000000#32) (ix2 p j) = Cert.MlpSpec.zero :=
  (broadcastInDim_apply _ bcast_S_S50000x256 (constant (F := Ideal) S_ .f32 0x00000000#32) (ix2 p j) ix0 (fun a => a.elim0)).trans rfl

/-! ## The two chains -/

/-- The edge part of a layer on the host: `relu(ew @ We1 + be1) @ We2 + be2`. -/
theorem edge_eq (X : FVec Ideal S800000x1 .f32) (w1 : FVec Ideal S1x256 .f32) (B1 : FVec Ideal S1x256 .f32)
    (w2 : FVec Ideal S256x256 .f32) (B2 : FVec Ideal S1x256 .f32) :
    addf (Host.dotGeneral dot_S800000x256_S256x256_S800000x256_1_0_0_1_n_n none
        (maximumf (addf (Host.dotGeneral dot_S800000x1_S1x256_S800000x256_1_0_0_1_n_n none X w1)
            (broadcastInDim S800000x256 ![0, 1] bcast_S1x256_S800000x256_0_1 B1))
          (broadcastInDim S800000x256 ![] bcast_S_S800000x256 (constant (F := Ideal) S_ .f32 0x00000000#32))) w2)
      (broadcastInDim S800000x256 ![0, 1] bcast_S1x256_S800000x256_0_1 B2)
    = Cert.MlpSpec.edge X w1 B1 w2 B2 := by
  funext i
  obtain ⟨p, j, rfl⟩ : ∃ (p : Fin 800000) (j : Fin 256), i = ix2 p j := ⟨i 0, i 1, eq_ix2 i⟩
  rw [Cert.MlpSpec.edge_apply, addf_apply, dotE2_apply, bias800000_apply]
  refine congrArg (· + B2 (ix2 0 j)) (Finset.sum_congr rfl fun k _ => ?_)
  rw [maximumf_apply, addf_apply, dotE1_apply, bias800000_apply, zero800000_apply, Fin.sum_univ_one]

/-- The node part of a layer on the host: `relu(node @ Wn1 + bn1) @ Wn2 + bn2`. -/
theorem node_eq (x : FVec Ideal S50000x256 .f32) (w1 : FVec Ideal S256x256 .f32) (B1 : FVec Ideal S1x256 .f32)
    (w2 : FVec Ideal S256x256 .f32) (B2 : FVec Ideal S1x256 .f32) :
    addf (Host.dotGeneral dot_S50000x256_S256x256_S50000x256_1_0_0_1_n_n none
        (maximumf (addf (Host.dotGeneral dot_S50000x256_S256x256_S50000x256_1_0_0_1_n_n none x w1)
            (broadcastInDim S50000x256 ![0, 1] bcast_S1x256_S50000x256_0_1 B1))
          (broadcastInDim S50000x256 ![] bcast_S_S50000x256 (constant (F := Ideal) S_ .f32 0x00000000#32))) w2)
      (broadcastInDim S50000x256 ![0, 1] bcast_S1x256_S50000x256_0_1 B2)
    = Cert.MlpSpec.node x w1 B1 w2 B2 := by
  funext i
  obtain ⟨p, j, rfl⟩ : ∃ (p : Fin 50000) (j : Fin 256), i = ix2 p j := ⟨i 0, i 1, eq_ix2 i⟩
  rw [Cert.MlpSpec.node_apply, addf_apply, dotN_apply, bias50000_apply]
  refine congrArg (· + B2 (ix2 0 j)) (Finset.sum_congr rfl fun k _ => ?_)
  rw [maximumf_apply, addf_apply, dotN_apply, bias50000_apply, zero50000_apply]

end Cert.ReferenceIdeal.RefMlp

end
-- ==== Proof.RefValue.lean ====
/-
  The reference's result as two layers of the shared networks: its composed term is, per layer, the node network of the
  scatter-add (by destination node) of the edge network, over slices of the arguments; the two layers are joined along a
  new leading axis.
-/
import proofs.«146717_j90881507983367_1_alg».proof.Proof.Gen.ReferenceIdeal.Run
import proofs.«146717_j90881507983367_1_alg».proof.Proof.RefMlp

set_option maxRecDepth 16384

noncomputable section

namespace Cert.ReferenceIdeal.RefValue

open Cert.ReferenceIdeal Cert.ReferenceIdeal.Gen Cert.ReferenceIdeal.Value Idealize.ShloMosaic Idealize.ShloMosaic.TcCoe Idealize.SL.Sem

variable (m : (ℓ : Loc nD τ sig) → Buf (Elt Ideal) ℓ)

/-- Layer 0 of the reference, from the launch memory. -/
def layer0 (c : Dev nD) : FVec Ideal S50000x256 .f32 :=
  Cert.MlpSpec.node (Host.scatterAdd (F := Ideal) scatter_S50000x256_S800000x1_S800000x256_1_0_0_1 (broadcastInDim S50000x256 ![] bcast_S_S50000x256 (constant (F := Ideal) S_ .f32 0x00000000#32)) (broadcastInDim S800000x1 ![0] bcast_S800000_S800000x1_0 (shapeCast _ (extractStridedSlice S1x1x800000 ![0, 1, 0] (m ((c.tc : Thread nD τ).loc main_arg0)) slices_S2x2x800000_S1x1x800000_0_1_0) shapeCasts_S1x1x800000_S800000)) (Cert.MlpSpec.edge (broadcastInDim S800000x1 ![0] bcast_S800000_S800000x1_0 (shapeCast _ (extractStridedSlice S1x800000 ![0, 0] (m ((c.tc : Thread nD τ).loc main_arg1)) slices_S2x800000_S1x800000_0_0) shapeCasts_S1x800000_S800000)) (shapeCast _ (extractStridedSlice S1x1x256 ![0, 0, 0] (m ((c.tc : Thread nD τ).loc main_arg2)) slices_S2x1x256_S1x1x256_0_0_0) shapeCasts_S1x1x256_S1x256) (broadcastInDim S1x256 ![1] bcast_S256_S1x256_1 (shapeCast _ (extractStridedSlice S1x256 ![0, 0] (m ((c.tc : Thread nD τ).loc main_arg3)) slices_S2x256_S1x256_0_0) shapeCasts_S1x256_S256)) (shapeCast _ (extractStridedSlice S1x256x256 ![0, 0, 0] (m ((c.tc : Thread nD τ).loc main_arg4)) slices_S2x256x256_S1x256x256_0_0_0) shapeCasts_S1x256x256_S256x256) (broadcastInDim S1x256 ![1] bcast_S256_S1x256_1 (shapeCast _ (extractStridedSlice S1x256 ![0, 0] (m ((c.tc : Thread nD τ).loc main_arg5)) slices_S2x256_S1x256_0_0) shapeCasts_S1x256_S256)))) (shapeCast _ (extractStridedSlice S1x256x256 ![0, 0, 0] (m ((c.tc : Thread nD τ).loc main_arg6)) slices_S2x256x256_S1x256x256_0_0_0) shapeCasts_S1x256x256_S256x256) (broadcastInDim S1x256 ![1] bcast_S256_S1x256_1 (shapeCast _ (extractStridedSlice S1x256 ![0, 0] (m ((c.tc : Thread nD τ).loc main_arg7)) slices_S2x256_S1x256_0_0) shapeCasts_S1x256_S256)) (shapeCast _ (extractStridedSlice S1x256x256 ![0, 0, 0] (m ((c.tc : Thread nD τ).loc main_arg8)) slices_S2x256x256_S1x256x256_0_0_0) shapeCasts_S1x256x256_S256x256) (broadcastInDim S1x256 ![1] bcast_S256_S1x256_1 (shapeCast _ (extractStridedSlice S1x256 ![0, 0] (m ((c.tc : Thread nD τ).loc main_arg9)) slices_S2x256_S1x256_0_0) shapeCasts_S1x256_S256))

/-- Layer 1 of the reference, from the launch memory. -/
def layer1 (c : Dev nD) : FVec Ideal S50000x256 .f32 :=
  Cert.MlpSpec.node (Host.scatterAdd (F := Ideal) scatter_S50000x256_S800000x1_S800000x256_1_0_0_1 (broadcastInDim S50000x256 ![] bcast_S_S50000x256 (constant (F := Ideal) S_ .f32 0x00000000#32)) (broadcastInDim S800000x1 ![0] bcast_S800000_S800000x1_0 (shapeCast _ (extractStridedSlice S1x1x800000 ![1, 1, 0] (m ((c.tc : Thread nD τ).loc main_arg0)) slices_S2x2x800000_S1x1x800000_1_1_0) shapeCasts_S1x1x800000_S800000)) (Cert.MlpSpec.edge (broadcastInDim S800000x1 ![0] bcast_S800000_S800000x1_0 (shapeCast _ (extractStridedSlice S1x800000 ![1, 0] (m ((c.tc : Thread nD τ).loc main_arg1)) slices_S2x800000_S1x800000_1_0) shapeCasts_S1x800000_S800000)) (shapeCast _ (extractStridedSlice S1x1x256 ![1, 0, 0] (m ((c.tc : Thread nD τ).loc main_arg2)) slices_S2x1x256_S1x1x256_1_0_0) shapeCasts_S1x1x256_S1x256) (broadcastInDim S1x256 ![1] bcast_S256_S1x256_1 (shapeCast _ (extractStridedSlice S1x256 ![1, 0] (m ((c.tc : Thread nD τ).loc main_arg3)) slices_S2x256_S1x256_1_0) shapeCasts_S1x256_S256)) (shapeCast _ (extractStridedSlice S1x256x256 ![1, 0, 0] (m ((c.tc : Thread nD τ).loc main_arg4)) slices_S2x256x256_S1x256x256_1_0_0) shapeCasts_S1x256x256_S256x256) (broadcastInDim S1x256 ![1] bcast_S256_S1x256_1 (shapeCast _ (extractStridedSlice S1x256 ![1, 0] (m ((c.tc : Thread nD τ).loc main_arg5)) slices_S2x256_S1x256_1_0) shapeCasts_S1x256_S256)))) (shapeCast _ (extractStridedSlice S1x256x256 ![1, 0, 0] (m ((c.tc : Thread nD τ).loc main_arg6)) slices_S2x256x256_S1x256x256_1_0_0) shapeCasts_S1x256x256_S256x256) (broadcastInDim S1x256 ![1] bcast_S256_S1x256_1 (shapeCast _ (extractStridedSlice S1x256 ![1, 0] (m ((c.tc : Thread nD τ).loc main_arg7)) slices_S2x256_S1x256_1_0) shapeCasts_S1x256_S256)) (shapeCast _ (extractStridedSlice S1x256x256 ![1, 0, 0] (m ((c.tc : Thread nD τ).loc main_arg8)) slices_S2x256x256_S1x256x256_1_0_0) shapeCasts_S1x256x256_S256x256) (broadcastInDim S1x256 ![1] bcast_S256_S1x256_1 (shapeCast _ (extractStridedSlice S1x256 ![1, 0] (m ((c.tc : Thread nD τ).loc main_arg9)) slices_S2x256_S1x256_1_0) shapeCasts_S1x256_S256))

/-- The reference's composed result term is the two layers, stacked. -/
theorem res_eq (c : Dev nD) : res_main_v90 (F := Ideal) m c
    = concatenate S2x50000x256 0 [⟨S1x50000x256, broadcastInDim S1x50000x256 ![1, 2] bcast_S50000x256_S1x50000x256_1_2 (layer0 m c)⟩,
        ⟨S1x50000x256, broadcastInDim S1x50000x256 ![1, 2] bcast_S50000x256_S1x50000x256_1_2 (layer1 m c)⟩]
        concatenates_S1x50000x256_S1x50000x256_S2x50000x256_d0 := by
  unfold res_main_v90 layer0 layer1
  rw [Cert.ReferenceIdeal.RefMlp.edge_eq, Cert.ReferenceIdeal.RefMlp.edge_eq, Cert.ReferenceIdeal.RefMlp.node_eq,
    Cert.ReferenceIdeal.RefMlp.node_eq]

end Cert.ReferenceIdeal.RefValue

end
-- ==== Proof.LayoutEq.lean ====
/-
  Two ways to give a vector a unit axis are one function: reshaping `[a]` to the column `[a, 1]` (or to the row `[1, a]`)
  and broadcasting it along the new axis both read, at `(i, 0)` (resp. `(0, i)`), the vector at `i`.
-/
import proofs.«146717_j90881507983367_1_alg».proof.Proof.LibColumn
import Idealize.ShloMosaic.Lib.ValueIdx
import Idealize.ShloMosaic.Lib.ValueLayout
import Idealize.ShloMosaic.Lib.Pipeline.Value

namespace Cert.LayoutEq

open Idealize.ShloMosaic Idealize.ShloMosaic.ValueIdx

variable {α : Type}

/-- A vector reshaped to a column is the vector broadcast along a new trailing unit axis. -/
theorem col_cast_eq_bcast {a : ℕ} (y : (⟨1, ![a]⟩ : Shape).Idx → α) (h : (⟨1, ![a]⟩ : Shape).ShapeCasts ⟨2, ![a, 1]⟩)
    (h' : (⟨1, ![a]⟩ : Shape).BroadcastsInDim ⟨2, ![a, 1]⟩ (![0] : Fin 1 → Fin 2)) :
    shapeCast ⟨2, ![a, 1]⟩ y h = broadcastInDim ⟨2, ![a, 1]⟩ ![0] h' y := by
  funext i
  obtain ⟨p, u, rfl⟩ : ∃ (p : Fin a) (u : Fin 1), i = ix2 p u := ⟨i 0, i 1, eq_ix2 i⟩
  rw [Cert.LibColumn.shapeCast_a_a1_apply]
  -- the broadcast reads the vector at the row coordinate; if `a = 1` that coordinate is `0` anyway
  refine (broadcastInDim_apply _ h' y (ix2 p u) (ix1 p) fun ax => ?_).symm
  match ax with
  | ⟨0, _⟩ =>
    show p.val = if a = 1 then 0 else p.val
    split
    · have := p.isLt; omega
    · rfl

/-- A vector reshaped to a row is the vector broadcast along a new leading unit axis. -/
theorem row_cast_eq_bcast {a : ℕ} (y : (⟨1, ![a]⟩ : Shape).Idx → α) (h : (⟨1, ![a]⟩ : Shape).ShapeCasts ⟨2, ![1, a]⟩)
    (h' : (⟨1, ![a]⟩ : Shape).BroadcastsInDim ⟨2, ![1, a]⟩ (![1] : Fin 1 → Fin 2)) :
    shapeCast ⟨2, ![1, a]⟩ y h = broadcastInDim ⟨2, ![1, a]⟩ ![1] h' y := by
  funext i
  obtain ⟨u, p, rfl⟩ : ∃ (u : Fin 1) (p : Fin a), i = ix2 u p := ⟨i 0, i 1, eq_ix2 i⟩
  rw [shapeCast_a_1a_apply]
  -- the broadcast reads the vector at the column coordinate; if `a = 1` that coordinate is `0` anyway
  refine (broadcastInDim_apply _ h' y (ix2 u p) (ix1 p) fun ax => ?_).symm
  match ax with
  | ⟨0, _⟩ =>
    show p.val = if a = 1 then 0 else p.val
    split
    · have := p.isLt; omega
    · rfl

end Cert.LayoutEq
-- ==== Proof.lean ====
/-
  Two layers of a message-passing network — an edge network (a weight times a row, plus a bias, clamped at zero, times a
  256 × 256 matrix, plus a bias), a scatter-add of the edge messages by destination node, and a node network (two
  256 × 256 layers with a clamp between) — computed by two tiled kernels per layer around a host scatter-add, against the
  same network written with whole-array products on the host.

  Over the extended reals both programs compute, per layer, `node (scatter-add (edge …))` of the same slices of the
  arguments: a kernel's matrix product into a zero accumulator and the host's product are the same finite sum, a format
  change is the identity, a block of rows of either network depends only on that block of rows of its first operand, and
  the blocks tile the arrays. The scatter-add is the same host operation in both programs, applied to equal arrays. No
  algebraic law beyond reading each operation at an index is used, so the finiteness of the inputs is never opened.
  The three frames are the programs' runs with the results dropped; the idealization rewrote nothing.
-/
import proofs.«146717_j90881507983367_1_alg».proof.Defs
import proofs.«146717_j90881507983367_1_alg».proof.Proof.Gen.Kernel
import proofs.«146717_j90881507983367_1_alg».proof.Proof.Gen.KernelIdeal
import proofs.«146717_j90881507983367_1_alg».proof.Proof.Gen.ReferenceIdeal
import proofs.«146717_j90881507983367_1_alg».proof.Proof.Gen.Pre_finite_inputs
import proofs.«146717_j90881507983367_1_alg».proof.Proof.Gen.ReferenceIdeal.Run
import proofs.«146717_j90881507983367_1_alg».proof.Proof.KernelFrame
import proofs.«146717_j90881507983367_1_alg».proof.Proof.KernelIdealFrame
import proofs.«146717_j90881507983367_1_alg».proof.Proof.KRun
import proofs.«146717_j90881507983367_1_alg».proof.Proof.KValue
import proofs.«146717_j90881507983367_1_alg».proof.Proof.RefValue
import proofs.«146717_j90881507983367_1_alg».proof.Proof.LayoutEq
import Idealize.ShloMosaic.Adequacy
import Idealize.ShloMosaic.Init

set_option maxRecDepth 16384

noncomputable section

namespace Cert.Proof

open Idealize.ShloMosaic Idealize.ShloMosaic.TcCoe Idealize.SL.Sem

/-! ## The two programs' layers are one function of the arguments -/

section Layers

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)
  (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
  (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
  (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
  (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
  (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
  (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
  (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))

include h0 h1 h2 h3 h4 h5 h6 h7 h8 h9

/-- Layer 0: the reference's vector operands enter as broadcasts along a new unit axis, the kernel's as reshapes; these
    are one array, and everything else is the same term. -/
theorem layer0_eq : Cert.ReferenceIdeal.RefValue.layer0 m' c = Cert.KernelIdeal.KValue.layer0 m c := by
  unfold Cert.ReferenceIdeal.RefValue.layer0 Cert.KernelIdeal.KValue.layer0
  rw [h0, h1, h2, h3, h4, h5, h6, h7, h8, h9]
  simp only [Cert.LayoutEq.col_cast_eq_bcast _ _ Cert.ReferenceIdeal.Gen.bcast_S800000_S800000x1_0,
    Cert.LayoutEq.row_cast_eq_bcast _ _ Cert.ReferenceIdeal.Gen.bcast_S256_S1x256_1]
  rfl

/-- Layer 1: the same, over the arguments' second slices. -/
theorem layer1_eq : Cert.ReferenceIdeal.RefValue.layer1 m' c = Cert.KernelIdeal.KValue.layer1 m c := by
  unfold Cert.ReferenceIdeal.RefValue.layer1 Cert.KernelIdeal.KValue.layer1
  rw [h0, h1, h2, h3, h4, h5, h6, h7, h8, h9]
  simp only [Cert.LayoutEq.col_cast_eq_bcast _ _ Cert.ReferenceIdeal.Gen.bcast_S800000_S800000x1_0,
    Cert.LayoutEq.row_cast_eq_bcast _ _ Cert.ReferenceIdeal.Gen.bcast_S256_S1x256_1]
  rfl

end Layers

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the two layers stacked, and the layers agree. -/
theorem algebraic : Cert.algebraic_KernelIdeal_ReferenceIdeal := by
  intro m ρ m' ρ' _ hagree
  refine ⟨fun c => Cert.KernelIdeal.Gen.W9 m ρ c (Proc.devRef .tc Cert.KernelIdeal.main_v62), Cert.KernelIdeal.Gen.run_main m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  refine ((Cert.ReferenceIdeal.RefValue.res_eq m' c).trans ?_).trans (Cert.KernelIdeal.KValue.result_eq m ρ c).symm
  rw [layer0_eq m m' c h0 h1 h2 h3 h4 h5 h6 h7 h8 h9, layer1_eq m m' c h0 h1 h2 h3 h4 h5 h6 h7 h8 h9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
